-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x512 : Shape := ⟨2, ![256, 512]⟩
abbrev S256 : Shape := ⟨1, ![256]⟩
abbrev S312500 : Shape := ⟨1, ![312500]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S312500 : S_.BroadcastsInDim S312500 (![] : Fin 0 → Fin S312500.rank)
  reducesTo_S312500_S_d0 : S312500.ReducesTo [0] S_

variable [Facts]

def fn_part1 {F : FTy → Type} [FloatOps F] (main_arg4 : IVec S312500 32) (main_v13 : IVec S_ 1) (main_v15 : IVec S312500 1) (main_c_5 : IVec S_ 1) : IVec S_ 1 :=
  let main_v16 : IVec S_ 1 := (fun x v => Host.reduce IntOp.andi x v reducesTo_S312500_S_d0 h_S_) main_v15 main_c_5
  let main_v17 : IVec S_ 1 := andi main_v13 main_v16
  let main_c_6 : IVec S_ 32 := constantI S_ 32 50000#32
  let main_v18 : IVec S312500 32 := broadcastInDim S312500 ![] bcast_S_S312500 main_c_6
  let main_v19 : IVec S312500 1 := cmpi .slt main_arg4 main_v18
  let main_c_7 : IVec S_ 1 := constantI S_ 1 1#1
  let main_v20 : IVec S_ 1 := (fun x v => Host.reduce IntOp.andi x v reducesTo_S312500_S_d0 h_S_) main_v19 main_c_7
  let main_v21 : IVec S_ 1 := andi main_v17 main_v20
  main_v21

def fn {F : FTy → Type} [FloatOps F] (main_arg0 : FVec F S50000x256 .f32) (main_arg1 : FVec F S256x512 .f32) (main_arg2 : FVec F S256 .f32) (main_arg3 : IVec S312500 32) (main_arg4 : IVec S312500 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_c_4 : IVec S_ 32 := constantI S_ 32 0#32
  let main_v14 : IVec S312500 32 := broadcastInDim S312500 ![] bcast_S_S312500 main_c_4
  let main_v15 : IVec S312500 1 := cmpi .sge main_arg4 main_v14
  let main_c_5 : IVec S_ 1 := constantI S_ 1 1#1
  fn_part1 (F := F) main_arg4 main_v13 main_v15 main_c_5
-- ==== Kernel.lean ====
abbrev S50000x256 : Shape := ⟨2, ![50000, 256]⟩
abbrev S256x512 : Shape := ⟨2, ![256, 512]⟩
abbrev S256 : Shape := ⟨1, ![256]⟩
abbrev S312500 : Shape := ⟨1, ![312500]⟩
abbrev S256x256 : Shape := ⟨2, ![256, 256]⟩
abbrev S_ : Shape := ⟨0, ![]⟩
abbrev S50000 : Shape := ⟨1, ![50000]⟩
abbrev S312500x1 : Shape := ⟨2, ![312500, 1]⟩
abbrev S50000x1 : Shape := ⟨2, ![50000, 1]⟩
abbrev S1x256 : Shape := ⟨2, ![1, 256]⟩
abbrev S1 : Shape := ⟨1, ![1]⟩
abbrev S1x1 : Shape := ⟨2, ![1, 1]⟩
abbrev S312500x256 : Shape := ⟨2, ![312500, 256]⟩
abbrev S2000x256 : Shape := ⟨2, ![2000, 256]⟩
abbrev S2000x1 : Shape := ⟨2, ![2000, 1]⟩

abbrev nBuf : Space → Nat
  | .hbm => 49
  | .vmem => 11
  | .smem => 0
  | _ => 0

abbrev bufTy : (tb : Table) → Fin (tcTables nBuf tb) → BufTy
  | .hbm, ⟨0, _⟩ => ⟨S50000x256, .f32⟩
  | .hbm, ⟨1, _⟩ => ⟨S256x512, .f32⟩
  | .hbm, ⟨2, _⟩ => ⟨S256, .f32⟩
  | .hbm, ⟨3, _⟩ => ⟨S312500, .i32⟩
  | .hbm, ⟨4, _⟩ => ⟨S312500, .i32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .bf16⟩
  | .hbm, ⟨9, _⟩ => ⟨S256x256, .f32⟩
  | .hbm, ⟨10, _⟩ => ⟨S256x256, .bf16⟩
  | .hbm, ⟨11, _⟩ => ⟨S_, .f32⟩
  | .hbm, ⟨12, _⟩ => ⟨S312500, .f32⟩
  | .hbm, ⟨13, _⟩ => ⟨S_, .f32⟩
  | .hbm, ⟨14, _⟩ => ⟨S50000, .f32⟩
  | .hbm, ⟨15, _⟩ => ⟨S312500x1, .i32⟩
  | .hbm, ⟨16, _⟩ => ⟨S50000, .f32⟩
  | .hbm, ⟨17, _⟩ => ⟨S50000x1, .f32⟩
  | .hbm, ⟨18, _⟩ => ⟨S1x256, .f32⟩
  | .hbm, ⟨19, _⟩ => ⟨S50000x256, .f32⟩
  | .hbm, ⟨20, _⟩ => ⟨S50000x256, .f32⟩
  | .hbm, ⟨21, _⟩ => ⟨S_, .i32⟩
  | .hbm, ⟨22, _⟩ => ⟨S312500, .i32⟩
  | .hbm, ⟨23, _⟩ => ⟨S312500, .i1⟩
  | .hbm, ⟨24, _⟩ => ⟨S_, .i32⟩
  | .hbm, ⟨25, _⟩ => ⟨S312500, .i32⟩
  | .hbm, ⟨26, _⟩ => ⟨S312500, .i32⟩
  | .hbm, ⟨27, _⟩ => ⟨S312500, .i32⟩
  | .hbm, ⟨28, _⟩ => ⟨S312500x1, .i32⟩
  | .hbm, ⟨29, _⟩ => ⟨S1, .i32⟩
  | .hbm, ⟨30, _⟩ => ⟨S_, .i32⟩
  | .hbm, ⟨31, _⟩ => ⟨S312500x1, .i32⟩
  | .hbm, ⟨32, _⟩ => ⟨S312500x1, .i1⟩
  | .hbm, ⟨33, _⟩ => ⟨S1x1, .i32⟩
  | .hbm, ⟨34, _⟩ => ⟨S312500x1, .i32⟩
  | .hbm, ⟨35, _⟩ => ⟨S312500x1, .i1⟩
  | .hbm, ⟨36, _⟩ => ⟨S312500x1, .i1⟩
  | .hbm, ⟨37, _⟩ => ⟨S_, .i1⟩
  | .hbm, ⟨38, _⟩ => ⟨S312500, .i1⟩
  | .hbm, ⟨39, _⟩ => ⟨S312500x256, .f32⟩
  | .hbm, ⟨40, _⟩ => ⟨S312500x256, .i1⟩
  | .hbm, ⟨41, _⟩ => ⟨S_, .f32⟩
  | .hbm, ⟨42, _⟩ => ⟨S312500x256, .f32⟩
  | .hbm, ⟨43, _⟩ => ⟨S312500x256, .f32⟩
  | .hbm, ⟨44, _⟩ => ⟨S_, .f32⟩
  | .hbm, ⟨45, _⟩ => ⟨S50000x256, .f32⟩
  | .hbm, ⟨46, _⟩ => ⟨S312500x1, .i32⟩
  | .hbm, ⟨47, _⟩ => ⟨S50000x256, .f32⟩
  | .hbm, ⟨48, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .bf16⟩
  | .local _ .vmem, ⟨3, _⟩ => ⟨S256x256, .bf16⟩
  | .local _ .vmem, ⟨4, _⟩ => ⟨S2000x1, .f32⟩
  | .local _ .vmem, ⟨5, _⟩ => ⟨S2000x1, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_cst : Ref sig .tc := ⟨.hbm, 11, rfl⟩
abbrev main_call0_v6 : Ref sig .tc := ⟨.hbm, 12, rfl⟩
abbrev main_call0_cst_0 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12_0 : Ref sig .tc := ⟨.hbm, 19, rfl⟩
abbrev main_call0_v12_1 : Ref sig .tc := ⟨.hbm, 20, rfl⟩
abbrev main_call0_call0_c : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_c_0 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_c_1 : Ref sig .tc := ⟨.hbm, 29, rfl⟩
abbrev main_call0_call0_c_2 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_call0_c_3 : Ref sig .tc := ⟨.hbm, 37, rfl⟩
abbrev main_call0_call0_v12 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst : Ref sig .tc := ⟨.hbm, 41, rfl⟩
abbrev main_call0_call0_v15 : Ref sig .tc := ⟨.hbm, 42, rfl⟩
abbrev main_call0_v13 : Ref sig .tc := ⟨.hbm, 43, rfl⟩
abbrev main_call0_cst_1 : Ref sig .tc := ⟨.hbm, 44, rfl⟩
abbrev main_call0_v14 : Ref sig .tc := ⟨.hbm, 45, rfl⟩
abbrev main_call0_v15 : Ref sig .tc := ⟨.hbm, 46, rfl⟩
abbrev main_call0_v16 : Ref sig .tc := ⟨.hbm, 47, rfl⟩
abbrev main_v0 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S256x512_S256x256_0_0 : S256x512.Slices ![0, 0] S256x256
  slices_S256x512_S256x256_0_256 : S256x512.Slices ![0, 256] S256x256
  transposes_S256x256_S256x256_1_0 : S256x256.Transposes [1, 0] S256x256
  bitsLt_bf16_f32 : FTy.bits .bf16 < FTy.bits .f32
  bcast_S_S312500 : S_.BroadcastsInDim S312500 (![] : Fin 0 → Fin S312500.rank)
  bcast_S_S50000 : S_.BroadcastsInDim S50000 (![] : Fin 0 → Fin S50000.rank)
  bcast_S312500_S312500x1_0 : S312500.BroadcastsInDim S312500x1 (![0] : Fin 1 → Fin S312500x1.rank)
  shapeCasts_S50000_S50000x1 : S50000.ShapeCasts S50000x1
  shapeCasts_S256_S1x256 : S256.ShapeCasts S1x256
  bcast_S_S312500x1 : S_.BroadcastsInDim S312500x1 (![] : Fin 0 → Fin S312500x1.rank)
  bcast_S1_S1x1_1 : S1.BroadcastsInDim S1x1 (![1] : Fin 1 → Fin S1x1.rank)
  bcast_S1x1_S312500x1_0_1 : S1x1.BroadcastsInDim S312500x1 (![0, 1] : Fin 2 → Fin S312500x1.rank)
  reducesTo_S312500x1_S312500_d1 : S312500x1.ReducesTo [1] S312500
  h_S_ : 0 < S_.numel
  bcast_S312500_S312500x256_0 : S312500.BroadcastsInDim S312500x256 (![0] : Fin 1 → Fin S312500x256.rank)
  bcast_S_S312500x256 : S_.BroadcastsInDim S312500x256 (![] : Fin 0 → Fin S312500x256.rank)
  bcast_S_S50000x256 : S_.BroadcastsInDim S50000x256 (![] : Fin 0 → Fin S50000x256.rank)
  inb_S2000x256_S2000x256_0_0 : ∀ a, (![0, 0] : Fin 2 → Nat) a + S2000x256.size a ≤ S2000x256.size a
  h_S2000x256 : 0 < S2000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  broadcasts_S2000x1_S2000x256 : S2000x1.Broadcasts S2000x256
  scatter_S50000_S312500x1_S312500_n_0_0_1_wf : ScatterDims.WF S50000 S312500x1 S312500 [] [0] [0] 1
  gather_S50000x256_S312500x1_S312500x256_1_0_n_n_0_1_1256_wf : GatherDims.WF S50000x256 S312500x1 S312500x256 [1] [0] [] [0] [] 1 ![1, 256]
  scatter_S50000x256_S312500x1_S312500x256_1_0_0_1_wf : ScatterDims.WF S50000x256 S312500x1 S312500x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)

variable [Facts₀]

def scatter_S50000_S312500x1_S312500_n_0_0_1 : ScatterDims S50000 S312500x1 S312500 where
  updateWindowDims := []
  insertedWindowDims := [0]
  scatterDimsToOperandDims := [0]
  indexVectorDim := 1
  wf := scatter_S50000_S312500x1_S312500_n_0_0_1_wf
def gather_S50000x256_S312500x1_S312500x256_1_0_n_n_0_1_1256 : GatherDims S50000x256 S312500x1 S312500x256 where
  offsetDims := [1]
  collapsedSliceDims := [0]
  operandBatchingDims := []
  startIndicesBatchingDims := []
  startIndexMap := [0]
  indexVectorDim := 1
  sliceSizes := ![1, 256]
  wf := gather_S50000x256_S312500x1_S312500x256_1_0_n_n_0_1_1256_wf
def scatter_S50000x256_S312500x1_S312500x256_1_0_0_1 : ScatterDims S50000x256 S312500x1 S312500x256 where
  updateWindowDims := [1]
  insertedWindowDims := [0]
  scatterDimsToOperandDims := [0]
  indexVectorDim := 1
  wf := scatter_S50000x256_S312500x1_S312500x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v5) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v10) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v11) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v12_0) S2000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v12_1) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x256 : Shape := ⟨2, ![50000, 256]⟩
abbrev S256x512 : Shape := ⟨2, ![256, 512]⟩
abbrev S256 : Shape := ⟨1, ![256]⟩
abbrev S312500 : Shape := ⟨1, ![312500]⟩
abbrev S_ : Shape := ⟨0, ![]⟩
abbrev S312500x1 : Shape := ⟨2, ![312500, 1]⟩
abbrev S312500x256 : Shape := ⟨2, ![312500, 256]⟩
abbrev S312500x512 : Shape := ⟨2, ![312500, 512]⟩
abbrev S1x256 : Shape := ⟨2, ![1, 256]⟩

abbrev nBuf : Space → Nat
  | .hbm => 32
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x512, .f32⟩
  | .hbm, ⟨2, _⟩ => ⟨S256, .f32⟩
  | .hbm, ⟨3, _⟩ => ⟨S312500, .i32⟩
  | .hbm, ⟨4, _⟩ => ⟨S312500, .i32⟩
  | .hbm, ⟨5, _⟩ => ⟨S_, .i32⟩
  | .hbm, ⟨6, _⟩ => ⟨S312500, .i32⟩
  | .hbm, ⟨7, _⟩ => ⟨S312500, .i1⟩
  | .hbm, ⟨8, _⟩ => ⟨S_, .i32⟩
  | .hbm, ⟨9, _⟩ => ⟨S312500, .i32⟩
  | .hbm, ⟨10, _⟩ => ⟨S312500, .i32⟩
  | .hbm, ⟨11, _⟩ => ⟨S312500, .i32⟩
  | .hbm, ⟨12, _⟩ => ⟨S312500x1, .i32⟩
  | .hbm, ⟨13, _⟩ => ⟨S312500x256, .f32⟩
  | .hbm, ⟨14, _⟩ => ⟨S_, .i32⟩
  | .hbm, ⟨15, _⟩ => ⟨S312500, .i32⟩
  | .hbm, ⟨16, _⟩ => ⟨S312500, .i1⟩
  | .hbm, ⟨17, _⟩ => ⟨S_, .i32⟩
  | .hbm, ⟨18, _⟩ => ⟨S312500, .i32⟩
  | .hbm, ⟨19, _⟩ => ⟨S312500, .i32⟩
  | .hbm, ⟨20, _⟩ => ⟨S312500, .i32⟩
  | .hbm, ⟨21, _⟩ => ⟨S312500x1, .i32⟩
  | .hbm, ⟨22, _⟩ => ⟨S312500x256, .f32⟩
  | .hbm, ⟨23, _⟩ => ⟨S312500x512, .f32⟩
  | .hbm, ⟨24, _⟩ => ⟨S312500x256, .f32⟩
  | .hbm, ⟨25, _⟩ => ⟨S1x256, .f32⟩
  | .hbm, ⟨26, _⟩ => ⟨S312500x256, .f32⟩
  | .hbm, ⟨27, _⟩ => ⟨S312500x256, .f32⟩
  | .hbm, ⟨28, _⟩ => ⟨S_, .f32⟩
  | .hbm, ⟨29, _⟩ => ⟨S50000x256, .f32⟩
  | .hbm, ⟨30, _⟩ => ⟨S312500x1, .i32⟩
  | .hbm, ⟨31, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S312500 : S_.BroadcastsInDim S312500 (![] : Fin 0 → Fin S312500.rank)
  bcast_S312500_S312500x1_0 : S312500.BroadcastsInDim S312500x1 (![0] : Fin 1 → Fin S312500x1.rank)
  concatenates_S312500x256_S312500x256_S312500x512_d1 : Shape.Concatenates [S312500x256, S312500x256] S312500x512 1
  bcast_S256_S1x256_1 : S256.BroadcastsInDim S1x256 (![1] : Fin 1 → Fin S1x256.rank)
  bcast_S1x256_S312500x256_0_1 : S1x256.BroadcastsInDim S312500x256 (![0, 1] : Fin 2 → Fin S312500x256.rank)
  bcast_S_S50000x256 : S_.BroadcastsInDim S50000x256 (![] : Fin 0 → Fin S50000x256.rank)
  gather_S50000x256_S312500x1_S312500x256_1_0_n_n_0_1_1256_wf : GatherDims.WF S50000x256 S312500x1 S312500x256 [1] [0] [] [0] [] 1 ![1, 256]
  dot_S312500x512_S256x512_S312500x256_1_1_0_0_n_n_wf : DotDims.WF S312500x512 S256x512 S312500x256 [1] [1] [0] [0] [] []
  scatter_S50000x256_S312500x1_S312500x256_1_0_0_1_wf : ScatterDims.WF S50000x256 S312500x1 S312500x256 [1] [0] [0] 1

variable [Facts₀]

def gather_S50000x256_S312500x1_S312500x256_1_0_n_n_0_1_1256 : GatherDims S50000x256 S312500x1 S312500x256 where
  offsetDims := [1]
  collapsedSliceDims := [0]
  operandBatchingDims := []
  startIndicesBatchingDims := []
  startIndexMap := [0]
  indexVectorDim := 1
  sliceSizes := ![1, 256]
  wf := gather_S50000x256_S312500x1_S312500x256_1_0_n_n_0_1_1256_wf
def dot_S312500x512_S256x512_S312500x256_1_1_0_0_n_n : DotDims S312500x512 S256x512 S312500x256 where
  lhsContracting := [1]
  rhsContracting := [1]
  lhsNonContracting := [0]
  rhsNonContracting := [0]
  lhsBatch := []
  rhsBatch := []
  wf := dot_S312500x512_S256x512_S312500x256_1_1_0_0_n_n_wf
def scatter_S50000x256_S312500x1_S312500x256_1_0_0_1 : ScatterDims S50000x256 S312500x1 S312500x256 where
  updateWindowDims := [1]
  insertedWindowDims := [0]
  scatterDimsToOperandDims := [0]
  indexVectorDim := 1
  wf := scatter_S50000x256_S312500x1_S312500x256_1_0_0_1_wf

class Facts : Prop extends Facts₀ where

variable [Facts]
-- ==== Proof.PreFacts.lean ====
/-
  What the precondition says of the arguments: every entry of the three float arrays is a real number (neither
  infinity), and every neighbour index, read as a signed integer, is a node: 0 ≤ index < 50000.
-/
import proofs.«426169_j25907242729955_3_alg».proof.Pre_finite_inputs
import Idealize.ShloMosaic.PureOps.Ideal
import Idealize.ShloMosaic.Lib.ReduceAll
import Idealize.ShloMosaic.Lib.Affine
import Idealize.ShloMosaic.Lib.ValueIdx

noncomputable section

open Idealize.ShloMosaic

namespace Cert.PreFacts

open Cert.Pre_finite_inputs

/-- The scalar shape has exactly one index (the empty tuple of coordinates). -/
private instance subsingleton_scalarIdx : Subsingleton S_.Idx := ⟨fun _ _ => funext fun d => d.elim0⟩

/-- An extended real whose absolute value `max v (-v)` lies strictly below `+∞` is a real number: at `⊥` the
    absolute value is `-⊥ = ⊤`, at `⊤` it is `⊤`, and `⊤ < ⊤` is false. -/
private theorem real_of_abs_lt_top (v : EReal) (h : max v (-v) < ⊤) : ∃ r : ℝ, v = (r : EReal) := by
  induction v using EReal.rec with
  | bot => simp at h
  | coe r => exact ⟨r, rfl⟩
  | top => simp at h

/-- The bit pattern `0x7F800000` is `+∞`. -/
private theorem inf_bits : Ideal.ofBits .f32 0x7F800000#32 = (⊤ : EReal) := by simp [Ideal.ofBits, Ideal.ieee]

/-- One entry: the comparison `|v| < +∞` coming out 1 says `v` is real. -/
private theorem real_of_cmp (v : Ideal .f32)
    (h : FloatOps.cmpf (F := Ideal) (φ := .f32) .olt (FloatOps.hostAbsf v) (FloatOps.ofBits (F := Ideal) .f32 0x7F800000#32) = 1#1) :
    ∃ r : ℝ, v = (r : EReal) := by
  change Ideal.cmp .olt (max v (-v)) (Ideal.ofBits .f32 0x7F800000#32) = 1#1 at h
  rw [inf_bits] at h
  apply real_of_abs_lt_top
  by_contra hn
  simp [Ideal.cmp, hn] at h

/-- `jnp.all (|v| < +∞)` over any shape: if the reduction by `and` of the entrywise comparison is 1, every entry
    of `v` is real. -/
private theorem real_of_all {s : Shape} {axes : List (Fin s.rank)} (hb : S_.BroadcastsInDim s (![] : Fin 0 → Fin s.rank))
    (hr : s.ReducesTo axes S_) (h0 : 0 < S_.numel) (v : FVec Ideal s .f32)
    (h : Host.reduce IntOp.andi (cmpf .olt (Host.absf v) (broadcastInDim s ![] hb (constant S_ .f32 0x7F800000#32)))
          (constantI S_ 1 1#1) hr h0 ValueIdx.ix0 = 1#1) (i : s.Idx) : ∃ r : ℝ, v i = (r : EReal) :=
  real_of_cmp (v i) (Host.reduce_andi_all _ _ hr h0 _ h i)

/-- The precondition, all ones, gives: the node features, the weight and the bias are real everywhere, and every
    neighbour index is in [0, 50000). (The source indices are not constrained.) -/
theorem of_pre [Cert.Pre_finite_inputs.Facts]
    (x : FVec Ideal S50000x256 .f32) (W : FVec Ideal S256x512 .f32) (b : FVec Ideal S256 .f32) (Ai Aj : IVec S312500 32)
    (h : Cert.Pre_finite_inputs.fn (F := Ideal) x W b Ai Aj = fun _ => 1#1) :
    (∀ i, ∃ r : ℝ, x i = (r : EReal)) ∧ (∀ i, ∃ r : ℝ, W i = (r : EReal)) ∧ (∀ i, ∃ r : ℝ, b i = (r : EReal))
      ∧ ∀ e, 0 ≤ (Aj e).toInt ∧ (Aj e).toInt < 50000 := by
  -- the one entry of the scalar result, split into its five conjuncts
  have h1 := congrFun h ValueIdx.ix0
  dsimp only [Cert.Pre_finite_inputs.fn, Cert.Pre_finite_inputs.fn_part1, andi] at h1
  obtain ⟨h1, hlt⟩ := IntOp.andi_eq_one.1 h1
  obtain ⟨h1, hge⟩ := IntOp.andi_eq_one.1 h1
  obtain ⟨h1, hb⟩ := IntOp.andi_eq_one.1 h1
  obtain ⟨hx, hW⟩ := IntOp.andi_eq_one.1 h1
  refine ⟨real_of_all _ _ _ x hx, real_of_all _ _ _ W hW, real_of_all _ _ _ b hb, fun e => ⟨?_, ?_⟩⟩
  · -- `Aj e ≥ 0` as signed words
    have := Host.reduce_andi_all _ _ _ _ _ hge e
    exact IntOp.cmpi_sge.1 this
  · -- `Aj e < 50000` as signed words
    have := Host.reduce_andi_all _ _ _ _ _ hlt e
    exact IntOp.cmpi_slt.1 this

end Cert.PreFacts

end
-- ==== Proof.EdgeAgg.lean ====
/-
  Edge messages aggregated at their source node, as two closed forms of the argument arrays.

  Nodes carry feature rows `x n` (256 features); an edge `e` has a source index `Ai e` and a neighbour index `Aj e`; the
  weight `W` has, for each of 256 outputs `o`, 512 coefficients: the first 256 multiply the source's features, the last
  256 the neighbour's. An edge's message is `W · [x (source) ; x (neighbour)] + b`, and a node's result is the sum of the
  messages of the edges whose source index, read as a signed integer, is that node (an index outside the node range
  reaches no node). `edgeForm` writes that sum edge by edge. Because the source's share of a message is the same for
  every edge of a node, the sum is also the node's degree times (its own projection plus the bias) plus the sum of its
  neighbours' projections: `nodeForm`. The two agree on finite arguments (`edgeForm_eq_nodeForm`, in the module that
  proves it); this module only names the pieces.
-/
import Idealize.ShloMosaic.PureOps.Ideal
import Idealize.ShloMosaic.Lib.ValueIdx

noncomputable section

open scoped BigOperators
open Idealize.ShloMosaic Idealize.ShloMosaic.ValueIdx

namespace Cert.EdgeAgg

/-- Node features, the weight, the bias, and an index per edge. -/
abbrev SX : Shape := ⟨2, ![50000, 256]⟩
abbrev SW : Shape := ⟨2, ![256, 512]⟩
abbrev SB : Shape := ⟨1, ![256]⟩
abbrev SE : Shape := ⟨1, ![312500]⟩

/-- A node index as array indexing reads it: a negative index counts from the end (50000 is added to it). -/
def wrap (a : BitVec 32) : BitVec 32 := Scalar.select (IntOp.cmpi .slt a 0#32) (IntOp.addi a 50000#32) a

/-- The table row a row gather reads for the start index `a`: `a` read signed and clamped into [0, 49999]. -/
def rowOf (a : BitVec 32) : Fin 50000 := ⟨min a.toInt.toNat 49999, by omega⟩

/-- Coefficient `k` of the half of the weight that multiplies the source's features, -/
def lo (k : Fin 256) : Fin 512 := ⟨k.val, by omega⟩
/-- and of the half that multiplies the neighbour's. -/
def hi (k : Fin 256) : Fin 512 := ⟨256 + k.val, by omega⟩

/-- The edges whose source index, read signed, is node `n`. -/
def edgesInto (Ai : IVec SE 32) (n : Fin 50000) : Finset (Fin 312500) :=
  Finset.univ.filter fun e => (Ai (ix1 e)).toInt = (n.val : ℤ)

/-- Row `r` of the node features projected by the source half of the weight, at output `o`, -/
def projI (x : FVec Ideal SX .f32) (W : FVec Ideal SW .f32) (r : Fin 50000) (o : Fin 256) : EReal :=
  ∑ k : Fin 256, x (ix2 r k) * W (ix2 o (lo k))
/-- and by the neighbour half. -/
def projJ (x : FVec Ideal SX .f32) (W : FVec Ideal SW .f32) (r : Fin 50000) (o : Fin 256) : EReal :=
  ∑ k : Fin 256, x (ix2 r k) * W (ix2 o (hi k))

/-- EDGE BY EDGE: the sum, over the edges into node `n`, of the edge's message at output `o` — the source row's and the
    neighbour row's projections (each row the gather's: the wrapped index, clamped) plus the bias. -/
def edgeForm (x : FVec Ideal SX .f32) (W : FVec Ideal SW .f32) (b : FVec Ideal SB .f32) (Ai Aj : IVec SE 32)
    (n : Fin 50000) (o : Fin 256) : EReal :=
  0 + ∑ e ∈ edgesInto Ai n,
    ((projI x W (rowOf (wrap (Ai (ix1 e)))) o + projJ x W (rowOf (wrap (Aj (ix1 e)))) o) + b (ix1 o))

/-- NODE BY NODE: the degree of `n` (a sum of ones over its edges) times its own projection plus the bias, plus the sum
    of its neighbours' projections. -/
def nodeForm (x : FVec Ideal SX .f32) (W : FVec Ideal SW .f32) (b : FVec Ideal SB .f32) (Ai Aj : IVec SE 32)
    (n : Fin 50000) (o : Fin 256) : EReal :=
  (0 + ∑ _e ∈ edgesInto Ai n, (1 : EReal)) * (projI x W n o + b (ix1 o))
    + (0 + ∑ e ∈ edgesInto Ai n, projJ x W (rowOf (wrap (Aj (ix1 e)))) o)

end Cert.EdgeAgg

end
-- ==== Proof.EdgeNode.lean ====
/-
  The edge-by-edge sum of messages is the node-by-node form, on real arguments.

  For an edge into node `n` the source index read signed IS `n`, a node, so it is not negative (no wrap) and the gather's
  clamp leaves it: the source row of every such edge is row `n`. The source's projection and the bias are then the same
  in every term of the sum, and a sum of `|S|` equal real terms is `|S|` times the term; the neighbours' projections
  stay a sum. Over the reals this is distributivity, which the extended reals have only away from the infinities:
  hence the real witnesses.
-/
import proofs.«426169_j25907242729955_3_alg».proof.Proof.EdgeAgg
import Idealize.ShloMosaic.Lib.Affine

noncomputable section

open scoped BigOperators
open Idealize.ShloMosaic Idealize.ShloMosaic.ValueIdx

namespace Cert.EdgeAgg

/-- A word that is not negative when read signed is left as it is by the wrap: the comparison with zero fails, and the
    selection takes its second branch. -/
private theorem wrap_of_nonneg (a : BitVec 32) (h : 0 ≤ a.toInt) : wrap a = a := by
  have hc : ¬ IntOp.cmpi .slt a 0#32 = 1#1 := by
    rw [IntOp.cmpi_slt, BitVec.toInt_zero]
    omega
  unfold wrap Scalar.select
  exact if_neg hc

/-- The source row of an edge into node `n` is row `n`. -/
theorem rowOf_wrap_of_mem (Ai : IVec SE 32) (n : Fin 50000) (e : Fin 312500) (he : e ∈ edgesInto Ai n) :
    rowOf (wrap (Ai (ix1 e))) = n := by
  have h : (Ai (ix1 e)).toInt = (n.val : ℤ) := (Finset.mem_filter.mp he).2
  have hw : wrap (Ai (ix1 e)) = Ai (ix1 e) := wrap_of_nonneg _ (by rw [h]; exact Int.natCast_nonneg _)
  rw [hw]
  apply Fin.ext
  show min (Ai (ix1 e)).toInt.toNat 49999 = n.val
  rw [h, Int.toNat_natCast]
  have := n.isLt
  omega

/-- The coercion of a finite real sum is the sum of the coercions (no infinity is met, so nothing can go wrong). -/
private theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A finite sum of products of real-valued terms is real-valued. -/
private theorem sum_mul_real {ι : Type} (s : Finset ι) (f g : ι → EReal)
    (hf : ∀ i, ∃ r : ℝ, f i = (r : EReal)) (hg : ∀ i, ∃ r : ℝ, g i = (r : EReal)) :
    ∃ A : ℝ, ∑ i ∈ s, f i * g i = (A : EReal) := by
  choose fr hfr using hf
  choose gr hgr using hg
  refine ⟨∑ i ∈ s, fr i * gr i, ?_⟩
  rw [coe_sum]
  exact Finset.sum_congr rfl fun i _ => by rw [hfr, hgr, EReal.coe_mul]

/-- THE IDENTITY OVER THE REALS: a sum of terms `(A + c e) + B`, with `A` and `B` the same in every term, is the number
    of terms times `A + B`, plus the sum of the `c e`. -/
private theorem real_sum_split {ι : Type} (s : Finset ι) (A B : ℝ) (c : ι → ℝ) :
    ∑ e ∈ s, ((A + c e) + B) = (∑ _e ∈ s, (1 : ℝ)) * (A + B) + ∑ e ∈ s, c e := by
  simp only [Finset.sum_add_distrib, Finset.sum_const, nsmul_eq_mul, mul_one]
  ring

/-- The same identity among the coercions: both sides are coercions of the two real expressions above. -/
private theorem ereal_sum_split {ι : Type} (s : Finset ι) (A B : ℝ) (c : ι → ℝ) :
    (0 : EReal) + ∑ e ∈ s, (((A : EReal) + (c e : EReal)) + (B : EReal))
      = (0 + ∑ _e ∈ s, (1 : EReal)) * ((A : EReal) + (B : EReal)) + (0 + ∑ e ∈ s, (c e : EReal)) := by
  have h1 : ∑ e ∈ s, (((A : EReal) + (c e : EReal)) + (B : EReal)) = ((∑ e ∈ s, ((A + c e) + B) : ℝ) : EReal) := by
    rw [coe_sum]
    exact Finset.sum_congr rfl fun e _ => by rw [EReal.coe_add, EReal.coe_add]
  have h2 : ∑ _e ∈ s, (1 : EReal) = ((∑ _e ∈ s, (1 : ℝ) : ℝ) : EReal) := by
    rw [coe_sum]
    exact Finset.sum_congr rfl fun _ _ => EReal.coe_one.symm
  rw [h1, h2, ← coe_sum, zero_add, zero_add, zero_add, ← EReal.coe_add, ← EReal.coe_mul, ← EReal.coe_add,
    real_sum_split]

/-- EDGE BY EDGE IS NODE BY NODE, on real arguments. -/
theorem edgeForm_eq_nodeForm (x : FVec Ideal SX .f32) (W : FVec Ideal SW .f32) (b : FVec Ideal SB .f32) (Ai Aj : IVec SE 32)
    (hx : ∀ i, ∃ r : ℝ, x i = (r : EReal)) (hW : ∀ i, ∃ r : ℝ, W i = (r : EReal)) (hb : ∀ i, ∃ r : ℝ, b i = (r : EReal))
    (n : Fin 50000) (o : Fin 256) :
    edgeForm x W b Ai Aj n o = nodeForm x W b Ai Aj n o := by
  -- the source's projection at row `n`, every row's neighbour projection, and the bias are real
  obtain ⟨A, hA⟩ : ∃ A : ℝ, projI x W n o = (A : EReal) :=
    sum_mul_real _ _ _ (fun k => hx (ix2 n k)) (fun k => hW (ix2 o (lo k)))
  have hJ : ∀ r : Fin 50000, ∃ C : ℝ, projJ x W r o = (C : EReal) := fun r =>
    sum_mul_real _ _ _ (fun k => hx (ix2 r k)) (fun k => hW (ix2 o (hi k)))
  choose c hc using hJ
  obtain ⟨B, hB⟩ := hb (ix1 o)
  -- every edge's source row is row `n`, so every term is `(A + c e) + B`
  have h1 : ∑ e ∈ edgesInto Ai n,
        ((projI x W (rowOf (wrap (Ai (ix1 e)))) o + projJ x W (rowOf (wrap (Aj (ix1 e)))) o) + b (ix1 o))
      = ∑ e ∈ edgesInto Ai n, (((A : EReal) + (c (rowOf (wrap (Aj (ix1 e)))) : EReal)) + (B : EReal)) :=
    Finset.sum_congr rfl fun e he => by rw [rowOf_wrap_of_mem Ai n e he, hA, hc, hB]
  have h2 : ∑ e ∈ edgesInto Ai n, projJ x W (rowOf (wrap (Aj (ix1 e)))) o
      = ∑ e ∈ edgesInto Ai n, (c (rowOf (wrap (Aj (ix1 e)))) : EReal) :=
    Finset.sum_congr rfl fun e _ => hc _
  unfold edgeForm nodeForm
  rw [h1, h2, hA, hB]
  exact ereal_sum_split (edgesInto Ai n) A B fun e => c (rowOf (wrap (Aj (ix1 e))))

end Cert.EdgeAgg

end
-- ==== Proof.LibGatherRows.lean ====
/-
  A ROW GATHER READ AT AN INDEX. `stablehlo.gather` of a rank-2 operand `x : [N, C]` at a column of start indices
  `idx : [E, 1]` with offset_dims `[1]`, collapsed_slice_dims `[0]`, start_index_map `[0]`, index_vector_dim `1` and
  slice_sizes `[1, C]` — what `x[idx]` of a table of rows lowers to — has result `[E, C]`; its element `(e, j)` is the
  operand's element `(r, j)` where the row `r` is the start index `idx[e, 0]` read as a signed integer and clamped
  into `[0, N − 1]` (StableHLO clamps every start index so that the slice fits: here the slice is one whole row).
  General in the three sizes and in the element type.
-/
import Idealize.ShloMosaic.Lib.ValueIdx

noncomputable section

open scoped BigOperators

namespace Idealize.ShloMosaic.ValueIdx

open Idealize.ShloMosaic

section RowsGather
variable {α : Type}

/-- The dimension numbers of a gather of whole rows: operand `[N, C]`, start indices `[E, 1]`, result `[E, C]`;
    the result's axis 1 is the offset axis (it runs over a row), the operand's axis 0 is collapsed and is the one
    the start index addresses, the index vector lies along the start indices' axis 1, and a slice is `1 × C`.
    The conditions `wf` are decided (or assumed) on a program's literal shapes. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, j)`: the operand at row `idx[e, 0]` — read signed, clamped into `[0, N − 1]` — and
    column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowsDims N E C wf) x idx (ix2 e j)
      = x (ix2 ⟨min (idx (ix2 e (0 : Fin 1))).toInt.toNat (N - 1), by omega⟩ j) := by
  unfold Host.gather
  congr 1
  funext a
  refine Fin.ext ?_
  match a with
  | ⟨0, _⟩ =>
    -- the row: the clamped start; no batching coordinate, and no offset coordinate on a collapsed axis
    show (rowsDims N E C wf).start (ix2 e j) idx 0 + (rowsDims N E C wf).batchCoord (ix2 e j) 0
        + (rowsDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e j) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the column: the start index map does not name this axis, so the start is 0; the offset coordinate is `j`
    show (rowsDims N E C wf).start (ix2 e j) idx 1 + (rowsDims N E C wf).batchCoord (ix2 e j) 1
        + (rowsDims N E C wf).offCoord (ix2 e j) 1 = j.val
    have h1 : (1 : Fin 2) ∉ (rowsDims N E C wf).startIndexMap := by
      intro h; exact Nat.one_ne_zero (congrArg Fin.val (List.mem_singleton.mp h))
    have hk : (1 : Fin 2) ∈ (rowsDims N E C wf).sKept :=
      (GatherDims.mem_sKept _ _).mpr
        ⟨fun h => Nat.one_ne_zero (congrArg Fin.val (List.mem_singleton.mp h)), List.not_mem_nil⟩
    rw [GatherDims.batchCoord_eq_zero _ _ _ List.not_mem_nil]
    unfold GatherDims.start GatherDims.offCoord
    rw [dif_neg h1, dif_pos hk]
    simp only [Nat.add_zero, Nat.zero_add]
    rfl

end RowsGather

end Idealize.ShloMosaic.ValueIdx

end
-- ==== Proof.LibScatterRows.lean ====
/-
  AN ACCUMULATING ROW SCATTER READ AT AN INDEX, at the ideal instance. `stablehlo.scatter` with an `add` body of updates
  `upd : [E, C]` into an operand `x : [N, C]` at a column of scatter indices `idx : [E, 1]` with update_window_dims `[1]`,
  inserted_window_dims `[0]`, scatter_dims_to_operand_dims `[0]` and index_vector_dim `1` — what `x.at[idx].add(upd)` of
  a table of rows lowers to. Update element `(e, j')` lands on operand element `(idx[e, 0], j')`, the scatter index read
  as a SIGNED integer and NOT clamped: an update whose row is outside `[0, N)` is dropped. Over the extended reals the
  result at `(n, j)` is therefore `x (n, j)` plus the sum of `upd (e, j)` over the update rows `e` whose index is `n`.
  The same for a flat operand `[N]` and updates `[E]` (no window axis). General in the sizes.
-/
import Idealize.ShloMosaic.Lib.ValueIdx

noncomputable section

open scoped BigOperators

namespace Idealize.ShloMosaic.ValueIdx

open Idealize.ShloMosaic

/-! ## Where an update lands, in general -/

section General
variable {s si u : Shape}

/-- An axis is kept exactly when it is not among the removed ones. -/
theorem mem_kept_iff (axes : List (Fin s.rank)) (a : Fin s.rank) : a ∈ s.kept axes ↔ a ∉ axes := by
  simp [Shape.kept, List.mem_filter, List.mem_finRange]

/-- Update index `j` lands at operand index `i` exactly when on every axis the (signed, unclamped) start plus the
    window coordinate is `i`'s coordinate. -/
theorem resultIdx?_eq_some_iff (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h a
    split at h
    · rename_i hc
      have hf := Option.some.inj h
      have ha : (d.start j idx a + (d.window j a : ℤ)).toNat = (i a).val := congrArg (fun f => (f a).val) hf
      have := (hc a).1
      omega
    · exact absurd h (by simp)
  · intro h
    have hc : ∀ a, 0 ≤ d.start j idx a + (d.window j a : ℤ) ∧ d.start j idx a + (d.window j a : ℤ) < (s.size a : ℤ) := by
      intro a
      have := (i a).isLt
      rw [h a]
      omega
    rw [dif_pos hc]
    congr 1
    funext a
    refine Fin.ext ?_
    show (d.start j idx a + (d.window j a : ℤ)).toNat = (i a).val
    rw [h a]
    exact Int.toNat_natCast _

end General

/-! ## Rows: operand `[N, C]`, scatter indices `[E, 1]`, updates `[E, C]` -/

section RowsScatter

/-- The dimension numbers of an accumulating scatter of whole rows: the updates' axis 1 is the window axis (it runs
    over a row), the operand's axis 0 is the inserted one and the one a scatter index addresses, and the index vector
    lies along the scatter indices' axis 1. The conditions `wf` are decided (or assumed) on a program's literal
    shapes. -/
abbrev rowsScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (j' : Fin C)

/-- On the row axis the start of update `(e, j')` is the scatter index `idx[e, 0]`, read signed. -/
theorem rowsScatter_start_row :
    (rowsScatterDims N E C wf).start (ix2 e j') idx 0 = (idx (ix2 e (0 : Fin 1))).toInt := by
  unfold ScatterDims.start
  rw [dif_pos (show (0 : Fin 2) ∈ (rowsScatterDims N E C wf).scatterDimsToOperandDims from List.mem_singleton.mpr rfl)]
  have hsi : (rowsScatterDims N E C wf).siIdx (ix2 e j')
      ⟨List.idxOf (0 : Fin 2) (rowsScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which no scatter index addresses, the start is `0`. -/
theorem rowsScatter_start_col : (rowsScatterDims N E C wf).start (ix2 e j') idx 1 = 0 := by
  unfold ScatterDims.start
  rw [dif_neg (show (1 : Fin 2) ∉ (rowsScatterDims N E C wf).scatterDimsToOperandDims from
    fun h => Nat.one_ne_zero (congrArg Fin.val (List.mem_singleton.mp h)))]

/-- The row axis is inserted: no window coordinate there. -/
theorem rowsScatter_window_row : (rowsScatterDims N E C wf).window (ix2 e j') 0 = 0 := by
  unfold ScatterDims.window
  rw [dif_neg (show (0 : Fin 2) ∉ (rowsScatterDims N E C wf).sKept from
    fun h => (mem_kept_iff _ _).mp h (List.mem_singleton.mpr rfl))]

/-- On the column axis the window coordinate of update `(e, j')` is `j'`. -/
theorem rowsScatter_window_col : (rowsScatterDims N E C wf).window (ix2 e j') 1 = j'.val := by
  unfold ScatterDims.window
  rw [dif_pos (show (1 : Fin 2) ∈ (rowsScatterDims N E C wf).sKept from
    (mem_kept_iff _ _).mpr fun h => Nat.one_ne_zero (congrArg Fin.val (List.mem_singleton.mp h)))]
  rfl

/-- WHERE A ROW UPDATE LANDS: update `(e, j')` lands on operand element `(n, j)` exactly when the scatter index
    `idx[e, 0]`, read signed, is `n`, and the columns agree. -/
theorem rowsScatter_resultIdx?_eq_some (n : Fin N) (j : Fin C) :
    (rowsScatterDims N E C wf).resultIdx? (ix2 e j') idx = some (ix2 n j)
      ↔ (idx (ix2 e (0 : Fin 1))).toInt = (n.val : ℤ) ∧ j' = j := by
  rw [resultIdx?_eq_some_iff]
  constructor
  · intro h
    have h0 := h 0
    have h1 := h 1
    rw [rowsScatter_start_row, rowsScatter_window_row] at h0
    rw [rowsScatter_start_col, rowsScatter_window_col] at h1
    have h0' : (idx (ix2 e (0 : Fin 1))).toInt + ((0 : Nat) : ℤ) = (n.val : ℤ) := h0
    have h1' : (0 : ℤ) + (j'.val : ℤ) = (j.val : ℤ) := h1
    exact ⟨by omega, Fin.ext (by omega)⟩
  · rintro ⟨h0, rfl⟩ a
    match a with
    | ⟨0, _⟩ =>
      show (rowsScatterDims N E C wf).start (ix2 e j') idx 0 + ((rowsScatterDims N E C wf).window (ix2 e j') 0 : ℤ) = (n.val : ℤ)
      rw [rowsScatter_start_row, rowsScatter_window_row, h0]
      simp
    | ⟨1, _⟩ =>
      show (rowsScatterDims N E C wf).start (ix2 e j') idx 1 + ((rowsScatterDims N E C wf).window (ix2 e j') 1 : ℤ) = (j'.val : ℤ)
      rw [rowsScatter_start_col, rowsScatter_window_col]
      simp

end RowsScatter

section RowsScatterRead

/-- THE ACCUMULATING ROW SCATTER READ AT `(n, j)`, over the extended reals: the operand's element plus the sum, over
    the update rows `e` whose scatter index `idx[e, 0]` (read signed) is `n`, of the update's element `(e, j)`. -/
theorem scatterAdd_rows_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (n : Fin N) (j : Fin C) :
    Host.scatterAdd (F := Ideal) (rowsScatterDims N E C wf) x idx upd (ix2 n j)
      = x (ix2 n j)
        + ∑ e ∈ Finset.univ.filter (fun e : Fin E => (idx (ix2 e (0 : Fin 1))).toInt = (n.val : ℤ)), upd (ix2 e j) := by
  show x (ix2 n j) + ∑ v ∈ Finset.univ.filter
      (fun v => (rowsScatterDims N E C wf).resultIdx? v idx = some (ix2 n j)), upd v = _
  congr 1
  rw [Finset.sum_filter, sum_idx2, Finset.sum_filter]
  refine Finset.sum_congr rfl fun e _ => ?_
  simp only [rowsScatter_resultIdx?_eq_some]
  by_cases ht : (idx (ix2 e (0 : Fin 1))).toInt = (n.val : ℤ)
  · simp only [ht, true_and, if_true]
    exact Finset.sum_ite_eq' Finset.univ j (fun c => upd (ix2 e c)) |>.trans (if_pos (Finset.mem_univ j))
  · simp only [ht, false_and, if_false, Finset.sum_const_zero]

end RowsScatterRead

/-! ## Flat: operand `[N]`, scatter indices `[E, 1]`, updates `[E]` -/

section FlatScatter

/-- A rank-1 index is its one coordinate … -/
def idxEquiv1 {n : Nat} : (⟨1, ![n]⟩ : Shape).Idx ≃ Fin n where
  toFun i := i 0
  invFun a := ix1 a
  left_inv i := (eq_ix1 i).symm
  right_inv _ := rfl
/-- … so a sum over the rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of an accumulating scatter of scalars into a flat operand: the updates have no window
    axis, the operand's one axis is inserted and is the one a scatter index addresses, and the index vector lies along
    the scatter indices' axis 1. -/
abbrev flatScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- The start of update `e` is the scatter index `idx[e, 0]`, read signed. -/
theorem flatScatter_start :
    (flatScatterDims N E wf).start (ix1 e) idx 0 = (idx (ix2 e (0 : Fin 1))).toInt := by
  unfold ScatterDims.start
  rw [dif_pos (show (0 : Fin 1) ∈ (flatScatterDims N E wf).scatterDimsToOperandDims from List.mem_singleton.mpr rfl)]
  have hsi : (flatScatterDims N E wf).siIdx (ix1 e)
      ⟨List.idxOf (0 : Fin 1) (flatScatterDims N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: no window coordinate. -/
theorem flatScatter_window : (flatScatterDims N E wf).window (ix1 e) 0 = 0 := by
  unfold ScatterDims.window
  rw [dif_neg (show (0 : Fin 1) ∉ (flatScatterDims N E wf).sKept from
    fun h => (mem_kept_iff _ _).mp h (List.mem_singleton.mpr rfl))]

/-- WHERE A FLAT UPDATE LANDS: update `e` lands on operand element `n` exactly when the scatter index `idx[e, 0]`,
    read signed, is `n`. -/
theorem flatScatter_resultIdx?_eq_some (n : Fin N) :
    (flatScatterDims N E wf).resultIdx? (ix1 e) idx = some (ix1 n)
      ↔ (idx (ix2 e (0 : Fin 1))).toInt = (n.val : ℤ) := by
  rw [resultIdx?_eq_some_iff]
  constructor
  · intro h
    have h0 := h 0
    rw [flatScatter_start, flatScatter_window] at h0
    have h0' : (idx (ix2 e (0 : Fin 1))).toInt + ((0 : Nat) : ℤ) = (n.val : ℤ) := h0
    omega
  · intro h0 a
    match a with
    | ⟨0, _⟩ =>
      show (flatScatterDims N E wf).start (ix1 e) idx 0 + ((flatScatterDims N E wf).window (ix1 e) 0 : ℤ) = (n.val : ℤ)
      rw [flatScatter_start, flatScatter_window, h0]
      simp

end FlatScatter

section FlatScatterRead

/-- THE ACCUMULATING FLAT SCATTER READ AT `n`, over the extended reals: the operand's element plus the sum, over the
    updates `e` whose scatter index `idx[e, 0]` (read signed) is `n`, of the update `e`. -/
theorem scatterAdd_flat_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (flatScatterDims N E wf) x idx upd (ix1 n)
      = x (ix1 n)
        + ∑ e ∈ Finset.univ.filter (fun e : Fin E => (idx (ix2 e (0 : Fin 1))).toInt = (n.val : ℤ)), upd (ix1 e) := by
  show x (ix1 n) + ∑ v ∈ Finset.univ.filter
      (fun v => (flatScatterDims N E wf).resultIdx? v idx = some (ix1 n)), upd v = _
  congr 1
  rw [Finset.sum_filter, sum_idx1, Finset.sum_filter]
  refine Finset.sum_congr rfl fun e _ => ?_
  simp only [flatScatter_resultIdx?_eq_some]

end FlatScatterRead

end Idealize.ShloMosaic.ValueIdx

end
-- ==== Proof.RefRead.lean ====
/-
  The reference's result read at an entry: the edge-by-edge form.

  The reference gathers, for every edge, the source's and the neighbour's feature rows (each index wrapped when negative,
  then clamped by the gather), lays the two rows side by side as one row of 512, contracts it with the 512 coefficients
  of each output, adds the bias, and adds the message into the result row its source index names (dropped when that
  index is no node). At (n, o) that is the sum, over the edges into n, of the two halves of the contraction plus the
  bias.
-/
import proofs.«426169_j25907242729955_3_alg».proof.Proof.Gen.ReferenceIdeal.Read
import proofs.«426169_j25907242729955_3_alg».proof.Proof.EdgeAgg
import proofs.«426169_j25907242729955_3_alg».proof.Proof.LibGatherRows
import proofs.«426169_j25907242729955_3_alg».proof.Proof.LibScatterRows
import Idealize.ShloMosaic.Lib.Pipeline.Value
import Idealize.ShloMosaic.PureOps.Ideal.Laws
import Mathlib.Algebra.BigOperators.Fin

noncomputable section

open scoped BigOperators
open Idealize.ShloMosaic Idealize.ShloMosaic.ValueIdx

namespace Cert.EdgeAgg.Ref

open Cert.ReferenceIdeal Cert.ReferenceIdeal.Read Cert.EdgeAgg

/-! ## The start indices: each edge index, wrapped when negative -/

/-- The source column of start indices at edge `e` is the wrapped source index. -/
private theorem start_src [Cert.ReferenceIdeal.Facts] (Ai : IVec S312500 32) (e : Fin 312500) :
    val_main_v5 (F := Ideal) Ai (ix2 e (0 : Fin 1)) = wrap (Ai (ix1 e)) := by
  have hi : idx_main_v5 (ix2 e (0 : Fin 1)) = ix1 e := funext fun a => by
    match a with
    | ⟨0, _⟩ => rfl
  rw [val_main_v5_apply, hi, val_main_v4_apply, val_main_v1_apply, val_main_v3_apply, val_main_v0_apply,
    val_main_v2_apply, val_main_c_apply, val_main_c_0_apply]
  rfl

/-- The neighbour column of start indices at edge `e` is the wrapped neighbour index. -/
private theorem start_nbr [Cert.ReferenceIdeal.Facts] (Aj : IVec S312500 32) (e : Fin 312500) :
    val_main_v12 (F := Ideal) Aj (ix2 e (0 : Fin 1)) = wrap (Aj (ix1 e)) := by
  have hi : idx_main_v12 (ix2 e (0 : Fin 1)) = ix1 e := funext fun a => by
    match a with
    | ⟨0, _⟩ => rfl
  rw [val_main_v12_apply, hi, val_main_v11_apply, val_main_v8_apply, val_main_v10_apply, val_main_v7_apply,
    val_main_v9_apply, val_main_c_1_apply, val_main_c_2_apply]
  rfl

/-! ## The two gathered rows -/

/-- The source row gathered for edge `e`, at feature `k`. -/
private theorem gather_src [Cert.ReferenceIdeal.Facts] (x : FVec Ideal S50000x256 .f32) (Ai : IVec S312500 32)
    (e : Fin 312500) (k : Fin 256) :
    val_main_v6 (F := Ideal) x Ai (ix2 e k) = x (ix2 (rowOf (wrap (Ai (ix1 e)))) k) := by
  unfold val_main_v6
  refine (gather_rows_apply (N := 50000) (E := 312500) (C := 256) (by decide)
    Facts₀.gather_S50000x256_S312500x1_S312500x256_1_0_n_n_0_1_1256_wf x (val_main_v5 (F := Ideal) Ai) e k).trans ?_
  refine congrArg (fun r : Fin 50000 => x (ix2 r k)) (Fin.ext ?_)
  show min (val_main_v5 (F := Ideal) Ai (ix2 e (0 : Fin 1))).toInt.toNat (50000 - 1)
    = min (wrap (Ai (ix1 e))).toInt.toNat 49999
  rw [start_src]

/-- The neighbour row gathered for edge `e`, at feature `k`. -/
private theorem gather_nbr [Cert.ReferenceIdeal.Facts] (x : FVec Ideal S50000x256 .f32) (Aj : IVec S312500 32)
    (e : Fin 312500) (k : Fin 256) :
    val_main_v13 (F := Ideal) x Aj (ix2 e k) = x (ix2 (rowOf (wrap (Aj (ix1 e)))) k) := by
  unfold val_main_v13
  refine (gather_rows_apply (N := 50000) (E := 312500) (C := 256) (by decide)
    Facts₀.gather_S50000x256_S312500x1_S312500x256_1_0_n_n_0_1_1256_wf x (val_main_v12 (F := Ideal) Aj) e k).trans ?_
  refine congrArg (fun r : Fin 50000 => x (ix2 r k)) (Fin.ext ?_)
  show min (val_main_v12 (F := Ideal) Aj (ix2 e (0 : Fin 1))).toInt.toNat (50000 - 1)
    = min (wrap (Aj (ix1 e))).toInt.toNat 49999
  rw [start_nbr]

/-! ## The two rows side by side -/

/-- The first 256 entries of the joined row are the source row. -/
private theorem cat_lo [Cert.ReferenceIdeal.Facts] (x : FVec Ideal S50000x256 .f32) (Ai Aj : IVec S312500 32)
    (e : Fin 312500) (k : Fin 256) :
    val_main_v14 (F := Ideal) x Ai Aj (ix2 e (lo k)) = val_main_v6 (F := Ideal) x Ai (ix2 e k) := by
  unfold val_main_v14
  exact concatenate_pair_apply_left (t := S312500x512) (s₁ := S312500x256) (s₂ := S312500x256) _ _ _ _
    (ix2 e (lo k)) rfl (ix2 e k)
    (fun b => by
      match b with
      | ⟨0, _⟩ => rfl
      | ⟨1, _⟩ => rfl)

/-- The last 256 entries of the joined row are the neighbour row. -/
private theorem cat_hi [Cert.ReferenceIdeal.Facts] (x : FVec Ideal S50000x256 .f32) (Ai Aj : IVec S312500 32)
    (e : Fin 312500) (k : Fin 256) :
    val_main_v14 (F := Ideal) x Ai Aj (ix2 e (hi k)) = val_main_v13 (F := Ideal) x Aj (ix2 e k) := by
  unfold val_main_v14
  exact concatenate_pair_apply_right (t := S312500x512) (s₁ := S312500x256) (s₂ := S312500x256) _ _ _ _
    (ix2 e (hi k)) rfl rfl (ix2 e k)
    (fun b hb => by
      match b, hb with
      | ⟨0, _⟩, _ => rfl
      | ⟨1, _⟩, hb => exact (hb (Fin.ext rfl)).elim)
    (by show k.val + 256 = 256 + k.val; omega)

/-! ## The contraction over 512 is the two contractions over 256 -/

/-- A sum over 512 positions is the sum over the first 256 plus the sum over the last 256. -/
private theorem sum_halves (f : Fin 512 → EReal) :
    ∑ k : Fin 512, f k = ∑ k : Fin 256, f (lo k) + ∑ k : Fin 256, f (hi k) := by
  have h0 : (512 : Nat) = 256 + 256 := by norm_num
  calc ∑ k : Fin 512, f k
      = ∑ i : Fin (256 + 256), f (Fin.cast h0.symm i) :=
        Fintype.sum_equiv (finCongr h0) _ _ (fun k => congrArg f (Fin.ext rfl))
    _ = ∑ k : Fin 256, f (Fin.cast h0.symm (Fin.castAdd 256 k))
          + ∑ k : Fin 256, f (Fin.cast h0.symm (Fin.natAdd 256 k)) :=
        Fin.sum_univ_add (fun i : Fin (256 + 256) => f (Fin.cast h0.symm i))
    _ = ∑ k : Fin 256, f (lo k) + ∑ k : Fin 256, f (hi k) :=
        congrArg₂ (· + ·)
          (Finset.sum_congr rfl fun k _ => congrArg f (Fin.ext rfl))
          (Finset.sum_congr rfl fun k _ => congrArg f (Fin.ext rfl))

/-- An edge's contraction at output `o`: the source row's projection plus the neighbour row's. -/
private theorem dot_at [Cert.ReferenceIdeal.Facts] (x : FVec Ideal S50000x256 .f32) (W : FVec Ideal S256x512 .f32)
    (Ai Aj : IVec S312500 32) (e : Fin 312500) (o : Fin 256) :
    val_main_v15 (F := Ideal) x W Ai Aj (ix2 e o)
      = projI x W (rowOf (wrap (Ai (ix1 e)))) o + projJ x W (rowOf (wrap (Aj (ix1 e)))) o := by
  have hl : ∀ k : Fin 512, lidx_main_v15 (ix2 e o) k = ix2 e k := fun k => funext fun a => by
    match a with
    | ⟨0, _⟩ => rfl
    | ⟨1, _⟩ => rfl
  have hr : ∀ k : Fin 512, ridx_main_v15 (ix2 e o) k = ix2 o k := fun k => funext fun a => by
    match a with
    | ⟨0, _⟩ => rfl
    | ⟨1, _⟩ => rfl
  have h1 : ∑ k : Fin 512, val_main_v14 (F := Ideal) x Ai Aj (lidx_main_v15 (ix2 e o) k) * W (ridx_main_v15 (ix2 e o) k)
      = ∑ k : Fin 512, val_main_v14 (F := Ideal) x Ai Aj (ix2 e k) * W (ix2 o k) :=
    Finset.sum_congr rfl fun k _ => by rw [hl k, hr k]
  rw [val_main_v15_apply, h1, sum_halves (fun k => val_main_v14 (F := Ideal) x Ai Aj (ix2 e k) * W (ix2 o k))]
  unfold projI projJ
  refine congrArg₂ (· + ·) ?_ ?_
  · refine Finset.sum_congr rfl fun k _ => ?_
    rw [cat_lo, gather_src]
  · refine Finset.sum_congr rfl fun k _ => ?_
    rw [cat_hi, gather_nbr]

/-! ## The bias, the message, the scatter's index column and its operand -/

/-- The broadcast bias at `(e, o)` is the bias at `o`. -/
private theorem bias_at [Cert.ReferenceIdeal.Facts] (b : FVec Ideal S256 .f32) (e : Fin 312500) (o : Fin 256) :
    val_main_v17 (F := Ideal) b (ix2 e o) = b (ix1 o) := by
  have hi : idx_main_v16 (idx_main_v17 (ix2 e o)) = ix1 o := funext fun a => by
    match a with
    | ⟨0, _⟩ => rfl
  rw [val_main_v17_apply, val_main_v16_apply, hi]

/-- An edge's message at output `o`. -/
private theorem msg_at [Cert.ReferenceIdeal.Facts] (x : FVec Ideal S50000x256 .f32) (W : FVec Ideal S256x512 .f32)
    (b : FVec Ideal S256 .f32) (Ai Aj : IVec S312500 32) (e : Fin 312500) (o : Fin 256) :
    val_main_v18 (F := Ideal) x W b Ai Aj (ix2 e o)
      = (projI x W (rowOf (wrap (Ai (ix1 e)))) o + projJ x W (rowOf (wrap (Aj (ix1 e)))) o) + b (ix1 o) := by
  rw [val_main_v18_apply, dot_at, bias_at]
  rfl

/-- The scatter's index column at edge `e` is the source index. -/
private theorem idx_at [Cert.ReferenceIdeal.Facts] (Ai : IVec S312500 32) (e : Fin 312500) :
    val_main_v20 (F := Ideal) Ai (ix2 e (0 : Fin 1)) = Ai (ix1 e) := by
  have hi : idx_main_v20 (ix2 e (0 : Fin 1)) = ix1 e := funext fun a => by
    match a with
    | ⟨0, _⟩ => rfl
  rw [val_main_v20_apply, hi]

/-- The scatter's operand is zero everywhere. -/
private theorem zero_at [Cert.ReferenceIdeal.Facts] (n : Fin 50000) (o : Fin 256) :
    val_main_v19 (F := Ideal) (ix2 n o) = 0 := by
  rw [val_main_v19_apply, val_main_cst_apply, Ideal.ofBits_def, Ideal.ofBits_zero_f32]

/-- THE REFERENCE AT (n, o) is the edge-by-edge form of its arguments. -/
theorem ref_apply [Cert.ReferenceIdeal.Facts]
    (x : FVec Ideal S50000x256 .f32) (W : FVec Ideal S256x512 .f32) (b : FVec Ideal S256 .f32) (Ai Aj : IVec S312500 32)
    (n : Fin 50000) (o : Fin 256) :
    val_main_v21 (F := Ideal) x W b Ai Aj (ix2 n o) = edgeForm x W b Ai Aj n o := by
  unfold val_main_v21
  refine (scatterAdd_rows_apply (N := 50000) (E := 312500) (C := 256)
    Facts₀.scatter_S50000x256_S312500x1_S312500x256_1_0_0_1_wf (val_main_v19 (F := Ideal))
    (val_main_v20 (F := Ideal) Ai) (val_main_v18 (F := Ideal) x W b Ai Aj) n o).trans ?_
  unfold edgeForm edgesInto
  rw [zero_at]
  refine congrArg (fun s : EReal => 0 + s) ?_
  exact Finset.sum_congr (Finset.filter_congr fun e _ => by rw [idx_at]) fun e _ => msg_at x W b Ai Aj e o

end Cert.EdgeAgg.Ref

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.LibColumnForms.lean ====
/-
  The two layout steps of a `keepdims` reduction along the lanes, read at an index: a vector of `a` row results cast to
  the column `[a, 1]`, and that column broadcast along the lanes to `[a, b]`. Composed, every entry of row `p` of the
  result is the row's one reduced value.
-/
import Idealize.ShloMosaic.Lib.Pipeline.Value
import Idealize.ShloMosaic.Lib.ValueIdx

noncomputable section

open Idealize.ShloMosaic Idealize.ShloMosaic.ValueIdx

namespace Cert.LibColumnForms

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnForms

end
-- ==== Proof.KernelBody.lean ====
/-
  The kernel body's two stored values read at an entry of a block of 2000 node rows.

  One grid point holds 2000 rows of node features `xb`, both 256 × 256 halves of the weight (laid out coefficient by
  output), the rows' degrees as a column `dg`, and the bias as a row `br`. It stores, at row `p` and output `o`:
    the neighbour projection          ∑ k, xb (p, k) · wj (k, o),
    the degree-scaled source term     dg (p, 0) · ((∑ k, xb (p, k) · wi (k, o)) + br (0, o)).
  Each matrix product accumulates into a zero block, so it is the plain sum over the 256 contracted coefficients; the
  change of format of `xb` is the identity on extended reals; the column and the row are broadcast over the block.
-/
import proofs.«426169_j25907242729955_3_alg».proof.Proof.Gen.KernelIdeal.Skeleton
import proofs.«426169_j25907242729955_3_alg».proof.Proof.LibPlainMatmul
import proofs.«426169_j25907242729955_3_alg».proof.Proof.LibColumnForms
import Idealize.ShloMosaic.Lib.ValueLayout
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.EdgeAgg.Body

open Cert.KernelIdeal Cert.KernelIdeal.Gen

variable [Cert.KernelIdeal.Facts]

/-! ## The contraction's index maps: rows of the left operand, columns of the right, the shared axis contracted -/

theorem lhs_row (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl
theorem lhs_contr (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_contr (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_col (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- A block of rows times a resident half of the weight, into the zero block, at (p, o): the sum over the 256
    coefficients. -/
theorem product_apply (A : FVec Ideal S2000x256 .bf16) (B : FVec Ideal S256x256 .bf16) (p : Fin 2000) (o : Fin 256) :
    matmul dot_S2000x256_S256x256_S2000x256_1_0_0_1_n_n none A B (constant (F := Ideal) S2000x256 .f32 0x00000000#32) (ix2 p o)
      = ∑ k : Fin 256, A (ix2 p k) * B (ix2 k o) :=
  Cert.LibPlainMatmul.matmul_zero_apply dot_S2000x256_S256x256_S2000x256_1_0_0_1_n_n none rfl rfl
    lhs_row lhs_contr rhs_contr rhs_col A B p o

/-- THE NEIGHBOUR PROJECTION the body stores, at (p, o). -/
theorem pay2_apply (xb : Vec Ideal S2000x256 .f32) (wj : Vec Ideal S256x256 .bf16) (p : Fin 2000) (o : Fin 256) :
    k0_pay2 (F := Ideal) xb wj (ix2 p o) = ∑ k : Fin 256, xb (ix2 p k) * wj (ix2 k o) := by
  unfold k0_pay2 k0_pay1
  rw [shapeCast_self]
  exact product_apply _ _ p o

/-- THE DEGREE-SCALED SOURCE TERM the body stores, at (p, o). -/
theorem pay3_apply (xb : Vec Ideal S2000x256 .f32) (wi : Vec Ideal S256x256 .bf16) (dg : Vec Ideal S2000x1 .f32)
    (br : Vec Ideal S1x256 .f32) (p : Fin 2000) (o : Fin 256) :
    k0_pay3 (F := Ideal) xb wi dg br (ix2 p o)
      = dg (ix2 p (0 : Fin 1)) * ((∑ k : Fin 256, xb (ix2 p k) * wi (ix2 k o)) + br (ix2 (0 : Fin 1) o)) := by
  unfold k0_pay3 k0_pay1
  rw [shapeCast_self, shapeCast_self, shapeCast_self]
  rw [mulf_apply, addf_apply, Cert.LibColumnForms.broadcastTo_a1_ab_apply, broadcastTo_1b_ab_apply]
  exact congrArg (fun s => dg (ix2 p (0 : Fin 1)) * (s + br (ix2 (0 : Fin 1) o))) (product_apply _ _ p o)

end Cert.EdgeAgg.Body

end
-- ==== Proof.KernelArrays.lean ====
/-
  From blocks to arrays: what the two output arrays of the node projection hold after the whole grid.

  The grid has 25 points; point `t` works on node rows 2000·t … 2000·t + 1999: it reads that block of the node features
  and of the degree column, the whole of both weight halves and of the bias row, and writes back that block of each
  output. So row `n` of each output is written once, by point `n / 2000`, and the blocks tile all 50000 rows. Each output
  array therefore ends as ONE function of the arrays the region finds:
    the neighbour projection      (n, o) ↦ ∑ k, X (n, k) · WJ (k, o),
    the degree-scaled source term (n, o) ↦ DG (n, 0) · ((∑ k, X (n, k) · WI (k, o)) + BR (0, o)).
-/
import proofs.«426169_j25907242729955_3_alg».proof.Proof.Gen.KernelIdeal.Frame
import proofs.«426169_j25907242729955_3_alg».proof.Proof.KernelBody
import Idealize.ShloMosaic.Lib.Pipeline.Value
import Idealize.ShloMosaic.Lib.ValueIdx
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.EdgeAgg.Arrays

open Cert.KernelIdeal Cert.KernelIdeal.Gen Cert.EdgeAgg.Body

variable (m : (ℓ : Loc nD τ sig) → Buf (Elt Ideal) ℓ)

theorem hz : (![0, 0] : Fin 2 → Nat) = fun _ => 0 := funext fun a => by fin_cases a <;> rfl

/-! ## The two whole-array functions -/

/-- Row `n` of `X` against column `o` of a half of the weight laid out coefficient by output. -/
def rowProj (X : FVec Ideal S50000x256 .f32) (Wh : FVec Ideal S256x256 .bf16) (n : Fin 50000) (o : Fin 256) : EReal :=
  ∑ k : Fin 256, X (ix2 n k) * Wh (ix2 k o)

/-- The neighbour projection, as an array. -/
def nbrArr (X : FVec Ideal S50000x256 .f32) (WJ : FVec Ideal S256x256 .bf16) : FVec Ideal S50000x256 .f32 :=
  fun i => rowProj X WJ (i 0) (i 1)

/-- The degree-scaled source term, as an array. -/
def srcArr (X : FVec Ideal S50000x256 .f32) (WI : FVec Ideal S256x256 .bf16) (DG : FVec Ideal S50000x1 .f32)
    (BR : FVec Ideal S1x256 .f32) : FVec Ideal S50000x256 .f32 :=
  fun i => DG (ix2 (i 0) (0 : Fin 1)) * (rowProj X WI (i 0) (i 1) + BR (ix2 (0 : Fin 1) (i 1)))

/-- The body's degree-scaled source term at (p, o), when row `p` of its feature block is row `r` of `X`, its degree
    entry is `DG`'s at `r`, and its resident blocks are `WI` and `BR`. -/
theorem pay3_of_rows (xb : Vec Ideal S2000x256 .f32) (wi : Vec Ideal S256x256 .bf16) (dg : Vec Ideal S2000x1 .f32)
    (br : Vec Ideal S1x256 .f32) (X : FVec Ideal S50000x256 .f32) (WI : FVec Ideal S256x256 .bf16)
    (DG : FVec Ideal S50000x1 .f32) (BR : FVec Ideal S1x256 .f32) (r : Fin 50000) (p : Fin 2000) (o : Fin 256)
    (hx : ∀ k : Fin 256, xb (ix2 p k) = X (ix2 r k)) (hw : ∀ k : Fin 256, wi (ix2 k o) = WI (ix2 k o))
    (hd : dg (ix2 p (0 : Fin 1)) = DG (ix2 r (0 : Fin 1))) (hb : br (ix2 (0 : Fin 1) o) = BR (ix2 (0 : Fin 1) o)) :
    k0_pay3 (F := Ideal) xb wi dg br (ix2 p o)
      = DG (ix2 r (0 : Fin 1)) * (rowProj X WI r o + BR (ix2 (0 : Fin 1) o)) := by
  have hs : (∑ k : Fin 256, xb (ix2 p k) * wi (ix2 k o)) = rowProj X WI r o :=
    Finset.sum_congr rfl fun k _ => by rw [hx k, hw k]
  rw [pay3_apply, hs, hd, hb]

/-! ## Where the blocks lie -/

/-- The printed index maps, decided over the grid: the row-blocked windows are at block `t` of the rows and block 0 of
    the columns; the resident windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 25 := by
  have h := t.isLt
  have hN : cfg0.N = 25 := N_0
  omega

/-- Row `p` of point `t`'s block is node row 2000·t + p. -/
def rowAt (t : Fin cfg0.N) (p : Fin 2000) : Fin 50000 := ⟨t.val * 2000 + p.val, by have := t_lt t; omega⟩

/-! ## The arrays the region finds, each at its literal type -/

/-- The node features, the two halves of the weight (coefficient by output), the degree column and the bias row, as
    the region finds them. -/
abbrev xArr (c : Dev nD) : FVec Ideal S50000x256 .f32 := V m c main_arg0
abbrev wiArr (c : Dev nD) : FVec Ideal S256x256 .bf16 := V m c main_call0_v3
abbrev wjArr (c : Dev nD) : FVec Ideal S256x256 .bf16 := V m c main_call0_v5
abbrev dgArr (c : Dev nD) : FVec Ideal S50000x1 .f32 := V m c main_call0_v10
abbrev brArr (c : Dev nD) : FVec Ideal S1x256 .f32 := V m c main_call0_v11

/-! ## Each window's block read at an entry -/

theorem xblk_apply (c : Dev nD) (t : Fin cfg0.N) (p : Fin 2000) (k : Fin 256) :
    iblk m c 0 t (ix2 p k) = xArr m c (ix2 (rowAt t p) k) := by
  show V m c main_arg0 (((cfg0.win 0).blk t).view.emb (ix2 p k)) = V m c main_arg0 (ix2 (rowAt t p) k)
  refine congrArg _ (funext fun a => Fin.ext ?_)
  obtain ⟨e0, e1, -⟩ := idx_facts t
  match a with
  | ⟨0, _⟩ => show win0_0.index t (0 : Fin 2) * 2000 + 1 * p.val = t.val * 2000 + p.val; omega
  | ⟨1, _⟩ => show win0_0.index t (1 : Fin 2) * 256 + 1 * k.val = k.val; omega

theorem wiblk_apply (c : Dev nD) (t : Fin cfg0.N) (k : Fin 256) (o : Fin 256) :
    iblk m c 1 t (ix2 k o) = wiArr m c (ix2 k o) := by
  show V m c main_call0_v3 (((cfg0.win 1).blk t).view.emb (ix2 k o)) = V m c main_call0_v3 (ix2 k o)
  refine congrArg _ (funext fun a => Fin.ext ?_)
  obtain ⟨-, -, e0, e1, -⟩ := idx_facts t
  match a with
  | ⟨0, _⟩ => show win0_1.index t (0 : Fin 2) * 256 + 1 * k.val = k.val; omega
  | ⟨1, _⟩ => show win0_1.index t (1 : Fin 2) * 256 + 1 * o.val = o.val; omega

theorem wjblk_apply (c : Dev nD) (t : Fin cfg0.N) (k : Fin 256) (o : Fin 256) :
    iblk m c 2 t (ix2 k o) = wjArr m c (ix2 k o) := by
  show V m c main_call0_v5 (((cfg0.win 2).blk t).view.emb (ix2 k o)) = V m c main_call0_v5 (ix2 k o)
  refine congrArg _ (funext fun a => Fin.ext ?_)
  obtain ⟨-, -, -, -, e0, e1, -⟩ := idx_facts t
  match a with
  | ⟨0, _⟩ => show win0_2.index t (0 : Fin 2) * 256 + 1 * k.val = k.val; omega
  | ⟨1, _⟩ => show win0_2.index t (1 : Fin 2) * 256 + 1 * o.val = o.val; omega

theorem dgblk_apply (c : Dev nD) (t : Fin cfg0.N) (p : Fin 2000) :
    iblk m c 3 t (ix2 p (0 : Fin 1)) = dgArr m c (ix2 (rowAt t p) (0 : Fin 1)) := by
  show V m c main_call0_v10 (((cfg0.win 3).blk t).view.emb (ix2 p (0 : Fin 1))) = V m c main_call0_v10 (ix2 (rowAt t p) (0 : Fin 1))
  refine congrArg _ (funext fun a => Fin.ext ?_)
  obtain ⟨-, -, -, -, -, -, e0, e1, -⟩ := idx_facts t
  match a with
  | ⟨0, _⟩ => show win0_3.index t (0 : Fin 2) * 2000 + 1 * p.val = t.val * 2000 + p.val; omega
  | ⟨1, _⟩ => show win0_3.index t (1 : Fin 2) * 1 + 1 * 0 = 0; omega

theorem brblk_apply (c : Dev nD) (t : Fin cfg0.N) (o : Fin 256) :
    iblk m c 4 t (ix2 (0 : Fin 1) o) = brArr m c (ix2 (0 : Fin 1) o) := by
  show V m c main_call0_v11 (((cfg0.win 4).blk t).view.emb (ix2 (0 : Fin 1) o)) = V m c main_call0_v11 (ix2 (0 : Fin 1) o)
  refine congrArg _ (funext fun a => Fin.ext ?_)
  obtain ⟨-, -, -, -, -, -, -, -, e0, e1, -⟩ := idx_facts t
  match a with
  | ⟨0, _⟩ => show win0_4.index t (0 : Fin 2) * 1 + 1 * 0 = 0; omega
  | ⟨1, _⟩ => show win0_4.index t (1 : Fin 2) * 256 + 1 * o.val = o.val; omega

/-- An entry of point `t`'s block of either output lies at node row 2000·t + p. -/
theorem out5_emb (t : Fin cfg0.N) (p : Fin 2000) (o : Fin 256) :
    ((cfg0.win 5).blk t).view.emb (ix2 p o) = ix2 (rowAt t p) o := by
  funext a; apply Fin.ext
  obtain ⟨-, -, -, -, -, -, -, -, -, -, e0, e1, -⟩ := idx_facts t
  match a with
  | ⟨0, _⟩ => show win0_5.index t (0 : Fin 2) * 2000 + 1 * p.val = t.val * 2000 + p.val; omega
  | ⟨1, _⟩ => show win0_5.index t (1 : Fin 2) * 256 + 1 * o.val = o.val; omega
theorem out6_emb (t : Fin cfg0.N) (p : Fin 2000) (o : Fin 256) :
    ((cfg0.win 6).blk t).view.emb (ix2 p o) = ix2 (rowAt t p) o := by
  funext a; apply Fin.ext
  obtain ⟨-, -, -, -, -, -, -, -, -, -, -, -, e0, e1⟩ := idx_facts t
  match a with
  | ⟨0, _⟩ => show win0_6.index t (0 : Fin 2) * 2000 + 1 * p.val = t.val * 2000 + p.val; omega
  | ⟨1, _⟩ => show win0_6.index t (1 : Fin 2) * 256 + 1 * o.val = o.val; omega

/-! ## What a point writes back -/

/-- POINT `t` WRITES BACK block `t` of the neighbour projection of the arrays the region finds. -/
theorem flushed6_eq (c : Dev nD) (t : Fin cfg0.N) :
    (dats m 0 c).flushed 6 t
      = ((cfg0.win 6).blk t).view.read (Elt Ideal) (nbrArr (xArr m c) (wjArr m c)) := by
  show (cfg0.win 6).cut (grid0.coords t) ((dats m 0 c).after 6 t) = _
  rw [after0_6]
  unfold out0_6
  rw [View.canon_unit_zero hz]
  simp only [View.ld_unit_zero (S := S2000x256) hz, View.ld_unit_zero (S := S256x256) hz]
  funext j
  obtain ⟨p, o, rfl⟩ : ∃ (p : Fin 2000) (o : Fin 256), j = ix2 p o := ⟨j 0, j 1, eq_ix2 j⟩
  show k0_pay2 (F := Ideal) (iblk m c 0 t) (iblk m c 2 t) (ix2 p o)
    = nbrArr (xArr m c) (wjArr m c) (((cfg0.win 6).blk t).view.emb (ix2 p o))
  rw [out6_emb]
  refine (pay2_apply (iblk m c 0 t) (iblk m c 2 t) p o).trans ?_
  show _ = ∑ k : Fin 256, xArr m c (ix2 (rowAt t p) k) * wjArr m c (ix2 k o)
  refine Finset.sum_congr rfl fun k _ => ?_
  rw [xblk_apply, wjblk_apply]

/-- POINT `t` WRITES BACK block `t` of the degree-scaled source term of the arrays the region finds. -/
theorem flushed5_eq (c : Dev nD) (t : Fin cfg0.N) :
    (dats m 0 c).flushed 5 t
      = ((cfg0.win 5).blk t).view.read (Elt Ideal)
          (srcArr (xArr m c) (wiArr m c) (dgArr m c) (brArr m c)) := by
  show (cfg0.win 5).cut (grid0.coords t) ((dats m 0 c).after 5 t) = _
  rw [after0_5]
  unfold out0_5
  rw [View.canon_unit_zero hz]
  simp only [View.ld_unit_zero (S := S2000x256) hz, View.ld_unit_zero (S := S256x256) hz,
    View.ld_unit_zero (S := S2000x1) hz, View.ld_unit_zero (S := S1x256) hz]
  funext j
  obtain ⟨p, o, rfl⟩ : ∃ (p : Fin 2000) (o : Fin 256), j = ix2 p o := ⟨j 0, j 1, eq_ix2 j⟩
  show k0_pay3 (F := Ideal) (iblk m c 0 t) (iblk m c 1 t) (iblk m c 3 t) (iblk m c 4 t) (ix2 p o)
    = srcArr (xArr m c) (wiArr m c) (dgArr m c) (brArr m c) (((cfg0.win 5).blk t).view.emb (ix2 p o))
  rw [out5_emb]
  exact pay3_of_rows (iblk m c 0 t) (iblk m c 1 t) (iblk m c 3 t) (iblk m c 4 t) (xArr m c) (wiArr m c) (dgArr m c)
    (brArr m c) (rowAt t p) p o (fun k => xblk_apply m c t p k) (fun k => wiblk_apply m c t k o)
    (dgblk_apply m c t p) (brblk_apply m c t o)

/-! ## The blocks tile the rows -/

theorem mem_blk5 (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_call0_v12_0).slice (win0_5.rect t)).set ↔ _
  rw [View.set_slice_whole, Rect.mem_set_unit]
  exact Iff.rfl
theorem mem_blk6 (t : Fin cfg0.N) (i : S50000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole main_call0_v12_1).slice (win0_6.rect t)).set ↔ _
  rw [View.set_slice_whole, Rect.mem_set_unit]
  exact Iff.rfl

/-- The point whose block holds node row `r`. -/
def pointOf (r : Nat) (hr : r < 50000) : Fin cfg0.N :=
  ⟨r / 2000, by rw [show cfg0.N = 25 from N_0]; omega⟩

theorem cover5 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  refine ⟨pointOf (i 0).val hi0, flush0_5 _, ?_⟩
  rw [mem_blk5]
  obtain ⟨-, -, -, -, -, -, -, -, -, -, e0, e1, -⟩ := idx_facts (pointOf (i 0).val hi0)
  have ht : (pointOf (i 0).val hi0).val = (i 0).val / 2000 := rfl
  intro a
  match a with
  | ⟨0, _⟩ =>
    show win0_5.index (pointOf (i 0).val hi0) (0 : Fin 2) * 2000 ≤ (i 0).val
      ∧ (i 0).val < win0_5.index (pointOf (i 0).val hi0) (0 : Fin 2) * 2000 + 2000
    omega
  | ⟨1, _⟩ =>
    show win0_5.index (pointOf (i 0).val hi0) (1 : Fin 2) * 256 ≤ (i 1).val
      ∧ (i 1).val < win0_5.index (pointOf (i 0).val hi0) (1 : Fin 2) * 256 + 256
    omega
theorem cover6 (i : S50000x256.Idx) :
    ∃ t : Fin cfg0.N, (cfg0.win 6).flush t = true ∧ i ∈ ((cfg0.win 6).blk t).view.set := by
  have hi0 : (i 0).val < 50000 := (i 0).isLt
  have hi1 : (i 1).val < 256 := (i 1).isLt
  refine ⟨pointOf (i 0).val hi0, flush0_6 _, ?_⟩
  rw [mem_blk6]
  obtain ⟨-, -, -, -, -, -, -, -, -, -, -, -, e0, e1⟩ := idx_facts (pointOf (i 0).val hi0)
  have ht : (pointOf (i 0).val hi0).val = (i 0).val / 2000 := rfl
  intro a
  match a with
  | ⟨0, _⟩ =>
    show win0_6.index (pointOf (i 0).val hi0) (0 : Fin 2) * 2000 ≤ (i 0).val
      ∧ (i 0).val < win0_6.index (pointOf (i 0).val hi0) (0 : Fin 2) * 2000 + 2000
    omega
  | ⟨1, _⟩ =>
    show win0_6.index (pointOf (i 0).val hi0) (1 : Fin 2) * 256 ≤ (i 1).val
      ∧ (i 1).val < win0_6.index (pointOf (i 0).val hi0) (1 : Fin 2) * 256 + 256
    omega

/-! ## The arrays after the grid -/

/-- THE NEIGHBOUR PROJECTION's array after the whole grid. -/
theorem final6 (c : Dev nD) :
    (dats m 0 c).arrAt 6 cfg0.N = nbrArr (xArr m c) (wjArr m c) :=
  (dats m 0 c).arrAt_eq_of_cover 6 _ (fun t _ => flushed6_eq m c t) cover6

/-- THE DEGREE-SCALED SOURCE TERM's array after the whole grid. -/
theorem final5 (c : Dev nD) :
    (dats m 0 c).arrAt 5 cfg0.N
      = srcArr (xArr m c) (wiArr m c) (dgArr m c) (brArr m c) :=
  (dats m 0 c).arrAt_eq_of_cover 5 _ (fun t _ => flushed5_eq m c t) cover5

end Cert.EdgeAgg.Arrays

end
-- ==== Proof.HostTerms.lean ====
/-
  The arrays the host computes before the node projection, read at an entry.

  The weight `W` (256 outputs × 512 coefficients) is cut into its two halves of 256 coefficients, each transposed to
  coefficient by output (and narrowed, which is the identity on extended reals): the source half at (k, o) is
  `W (o, k)`, the neighbour half `W (o, 256 + k)`. The bias becomes a row. The degree column is a scatter of ones: node
  `n` receives a 1 from every edge whose source index, read signed, is `n`, onto an initial 0.
-/
import proofs.«426169_j25907242729955_3_alg».proof.KernelIdeal
import proofs.«426169_j25907242729955_3_alg».proof.Proof.EdgeAgg
import proofs.«426169_j25907242729955_3_alg».proof.Proof.LibScatterRows
import proofs.«426169_j25907242729955_3_alg».proof.Proof.LibColumnForms
import Idealize.ShloMosaic.Lib.ValueLayout
import Idealize.ShloMosaic.Lib.Pipeline.Value
import Idealize.ShloMosaic.Lib.ValueIdx
import Idealize.ShloMosaic.Lib.StableHlo.Predicate
import Idealize.ShloMosaic.PureOps.Ideal.Laws

noncomputable section

open scoped BigOperators
open Idealize.ShloMosaic Idealize.ShloMosaic.ValueIdx

namespace Cert.EdgeAgg.HostTerms

open Cert.KernelIdeal Cert.KernelIdeal.Facts₀ Cert.EdgeAgg

variable [Cert.KernelIdeal.Facts]

/-- The pattern of 1.0 denotes 1. -/
theorem ofBits_one : Ideal.ofBits .f32 0x3F800000#32 = 1 := by
  simp [Ideal.ofBits, Ideal.ieee, -EReal.coe_mul]; norm_num

/-- THE SOURCE HALF of the weight, coefficient by output, at (k, o). -/
theorem wi_apply (W : FVec Ideal S256x512 .f32) (k o : Fin 256) :
    (truncf .bf16 (transpose S256x256 [1, 0] (extractStridedSlice S256x256 ![0, 0] W slices_S256x512_S256x256_0_0)
        transposes_S256x256_S256x256_1_0) bitsLt_bf16_f32 : FVec Ideal S256x256 .bf16) (ix2 k o)
      = W (ix2 o (lo k)) := by
  rw [truncf_apply, transpose_ix2_apply]
  exact slice2_axis1_apply 0 W slices_S256x512_S256x256_0_0 o k (lo k) (by show k.val = 0 + k.val; omega)

/-- THE NEIGHBOUR HALF of the weight, coefficient by output, at (k, o). -/
theorem wj_apply (W : FVec Ideal S256x512 .f32) (k o : Fin 256) :
    (truncf .bf16 (transpose S256x256 [1, 0] (extractStridedSlice S256x256 ![0, 256] W slices_S256x512_S256x256_0_256)
        transposes_S256x256_S256x256_1_0) bitsLt_bf16_f32 : FVec Ideal S256x256 .bf16) (ix2 k o)
      = W (ix2 o (hi k)) := by
  rw [truncf_apply, transpose_ix2_apply]
  exact slice2_axis1_apply 256 W slices_S256x512_S256x256_0_256 o k (hi k) rfl

/-- THE BIAS ROW at (0, o). -/
theorem br_apply (b : FVec Ideal S256 .f32) (o : Fin 256) :
    shapeCast S1x256 b shapeCasts_S256_S1x256 (ix2 (0 : Fin 1) o) = b (ix1 o) :=
  shapeCast_a_1a_apply b shapeCasts_S256_S1x256 0 o

/-- A vector of edge indices laid out as a column reads, at (e, 0), the vector at e. -/
theorem col_apply (A : IVec S312500 32) (e : Fin 312500) :
    broadcastInDim S312500x1 ![0] bcast_S312500_S312500x1_0 A (ix2 e (0 : Fin 1)) = A (ix1 e) := by
  refine broadcastInDim_apply _ bcast_S312500_S312500x1_0 A (ix2 e (0 : Fin 1)) (ix1 e) (fun a => ?_)
  match a with
  | ⟨0, _⟩ => show e.val = if (312500 : Nat) = 1 then 0 else e.val; rw [if_neg (by decide)]

/-- THE DEGREE COLUMN at (n, 0): an initial 0 plus a 1 for every edge into n. -/
theorem dg_apply (Ai : IVec S312500 32) (n : Fin 50000) :
    shapeCast S50000x1
        (Host.scatterAdd (F := Ideal) scatter_S50000_S312500x1_S312500_n_0_0_1
          (broadcastInDim S50000 ![] bcast_S_S50000 (constant (F := Ideal) S_ .f32 0x00000000#32))
          (broadcastInDim S312500x1 ![0] bcast_S312500_S312500x1_0 Ai)
          (broadcastInDim S312500 ![] bcast_S_S312500 (constant (F := Ideal) S_ .f32 0x3F800000#32)))
        shapeCasts_S50000_S50000x1 (ix2 n (0 : Fin 1))
      = 0 + ∑ _e ∈ edgesInto Ai n, (1 : EReal) := by
  rw [Cert.LibColumnForms.shapeCast_a_a1_apply]
  refine (scatterAdd_flat_apply scatter_S50000_S312500x1_S312500_n_0_0_1_wf _ _ _ n).trans ?_
  rw [StableHlo.Predicate.bcast_scalar bcast_S_S50000 h_S_]
  have h0 : constant (F := Ideal) S_ .f32 0x00000000#32 (Shape.Idx.first h_S_) = 0 := Ideal.ofBits_zero_f32
  rw [h0]
  refine congrArg (fun s => (0 : EReal) + s) ?_
  unfold edgesInto
  refine Finset.sum_congr (Finset.filter_congr fun e _ => by rw [col_apply]) fun e _ => ?_
  rw [StableHlo.Predicate.bcast_scalar bcast_S_S312500 h_S_]
  exact ofBits_one

end Cert.EdgeAgg.HostTerms

end
-- ==== Proof.LibReduceAnd.lean ====
/-
  `jnp.all` in the other direction: a `stablehlo.reduce` by `and` of one-bit words, every one of which is 1, from an
  initial value that is 1, is 1 at every result index (the library's Lib/ReduceAll.lean reads a result that is 1 back into
  its operand; this is the converse, for a range test that is known to pass everywhere).
-/
import Idealize.ShloMosaic.Lib.ReduceAll

namespace Cert.LibReduceAnd

open Idealize.ShloMosaic

/-- A left fold by `and` over words that are all 1, from 1, is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 by decide]
    exact foldl_andi_one f hf l

/-- A reduce by `and` of an operand that is 1 everywhere, from an initial value that is 1, is 1. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_one x hx _

end Cert.LibReduceAnd
-- ==== Proof.HostTail.lean ====
/-
  The host operations after the node projection, as one term of the two projected arrays and the two index vectors,
  and that term read at an entry.

  The neighbour indices are wrapped (a negative index counts from the end) and laid out as a column; a row of the
  neighbour projection is gathered for every edge; an edge whose wrapped index is outside [0, 49999] gets a row of
  not-a-number patterns instead (the range test is a conjunction reduced over the column's one entry per edge). The
  gathered rows are added into the result rows their source indices name, onto zeros, and the degree-scaled source term
  is added to that. When every neighbour index is a node the range test passes everywhere, and the result at (n, o) is
  the source term plus the sum, over the edges into n, of the neighbour's projection.
-/
import proofs.«426169_j25907242729955_3_alg».proof.KernelIdeal
import proofs.«426169_j25907242729955_3_alg».proof.Proof.EdgeAgg
import proofs.«426169_j25907242729955_3_alg».proof.Proof.HostTerms
import proofs.«426169_j25907242729955_3_alg».proof.Proof.LibScatterRows
import proofs.«426169_j25907242729955_3_alg».proof.Proof.LibGatherRows
import proofs.«426169_j25907242729955_3_alg».proof.Proof.LibReduceAnd
import Idealize.ShloMosaic.Lib.Pipeline.Value
import Idealize.ShloMosaic.Lib.ValueIdx
import Idealize.ShloMosaic.Lib.Affine
import Idealize.ShloMosaic.Lib.StableHlo.Predicate
import Idealize.ShloMosaic.PureOps.Ideal.Laws

noncomputable section

open scoped BigOperators
open Idealize.ShloMosaic Idealize.ShloMosaic.ValueIdx

namespace Cert.EdgeAgg.HostTail

open Cert.KernelIdeal Cert.KernelIdeal.Facts₀ Cert.EdgeAgg

variable [Cert.KernelIdeal.Facts]

/-- The neighbour indices, wrapped, as a column of start indices. -/
def nbrCol (Aj : IVec S312500 32) : IVec S312500x1 32 :=
  broadcastInDim S312500x1 ![0] bcast_S312500_S312500x1_0
    (select (cmpi .slt Aj (broadcastInDim S312500 ![] bcast_S_S312500 (constantI S_ 32 0#32)))
      (addi Aj (broadcastInDim S312500 ![] bcast_S_S312500 (constantI S_ 32 50000#32))) Aj)

/-- Per edge: is the start index within [0, 49999]? -/
def inRange (idx : IVec S312500x1 32) : IVec S312500 1 :=
  Host.reduce IntOp.andi
    (andi (cmpi .sge idx (broadcastInDim S312500x1 ![] bcast_S_S312500x1 (constantI S_ 32 0#32)))
      (cmpi .sle idx (broadcastInDim S312500x1 ![0, 1] bcast_S1x1_S312500x1_0_1
        (broadcastInDim S1x1 ![1] bcast_S1_S1x1_1 (constantI S1 32 49999#32)))))
    (constantI S_ 1 1#1) reducesTo_S312500x1_S312500_d1 h_S_

/-- THE TAIL: the source term `A5` plus the scatter, by source index onto zeros, of the gathered rows of `A6`. -/
def tailTerm (A5 A6 : FVec Ideal S50000x256 .f32) (Ai Aj : IVec S312500 32) : FVec Ideal S50000x256 .f32 :=
  addf A5
    (Host.scatterAdd (F := Ideal) scatter_S50000x256_S312500x1_S312500x256_1_0_0_1
      (broadcastInDim S50000x256 ![] bcast_S_S50000x256 (constant (F := Ideal) S_ .f32 0x00000000#32))
      (broadcastInDim S312500x1 ![0] bcast_S312500_S312500x1_0 Ai)
      (select (broadcastInDim S312500x256 ![0] bcast_S312500_S312500x256_0 (inRange (nbrCol Aj)))
        (Host.gather gather_S50000x256_S312500x1_S312500x256_1_0_n_n_0_1_1256 A6 (nbrCol Aj))
        (broadcastInDim S312500x256 ![] bcast_S_S312500x256 (constant (F := Ideal) S_ .f32 0x7FC00000#32))))

/-! ## The wrapped neighbour column -/

/-- A word that is not negative when read signed is left as it is by the wrap: the comparison with zero fails, and the
    selection takes its second branch. -/
private theorem wrap_of_nonneg (a : BitVec 32) (h : 0 ≤ a.toInt) : wrap a = a := by
  have hc : ¬ IntOp.cmpi .slt a 0#32 = 1#1 := by
    rw [IntOp.cmpi_slt, BitVec.toInt_zero]
    omega
  unfold wrap Scalar.select
  exact if_neg hc

/-- The neighbour column at edge `e` is the wrapped neighbour index. -/
private theorem nbrCol_apply (Aj : IVec S312500 32) (e : Fin 312500) :
    nbrCol Aj (ix2 e (0 : Fin 1)) = wrap (Aj (ix1 e)) := by
  have h0 : broadcastInDim S312500 ![] bcast_S_S312500 (constantI S_ 32 0#32) (ix1 e) = 0#32 :=
    StableHlo.Predicate.bcast_scalar bcast_S_S312500 h_S_ _ _
  have h5 : broadcastInDim S312500 ![] bcast_S_S312500 (constantI S_ 32 50000#32) (ix1 e) = 50000#32 :=
    StableHlo.Predicate.bcast_scalar bcast_S_S312500 h_S_ _ _
  unfold nbrCol
  rw [HostTerms.col_apply, select_apply]
  show Scalar.select
      (IntOp.cmpi .slt (Aj (ix1 e)) (broadcastInDim S312500 ![] bcast_S_S312500 (constantI S_ 32 0#32) (ix1 e)))
      (IntOp.addi (Aj (ix1 e)) (broadcastInDim S312500 ![] bcast_S_S312500 (constantI S_ 32 50000#32) (ix1 e)))
      (Aj (ix1 e)) = wrap (Aj (ix1 e))
  rw [h0, h5]
  rfl

/-! ## The range test passes at every edge -/

/-- An index of a column is its row and the column's one position. -/
private theorem idx_col (i : S312500x1.Idx) : ∃ e : Fin 312500, i = ix2 e (0 : Fin 1) :=
  ⟨i 0, funext fun a => by
    match a with
    | ⟨0, _⟩ => rfl
    | ⟨1, h1⟩ =>
      refine Fin.ext ?_
      have h : (i ⟨1, h1⟩).val < 1 := (i ⟨1, h1⟩).isLt
      show (i ⟨1, h1⟩).val = 0
      omega⟩

/-- When every neighbour index is a node, the range test is 1 at every edge: the wrapped index is the index itself,
    which lies between 0 and 49999, so both comparisons hold at the column's one entry, and the conjunction reduced
    over that entry from 1 is 1. -/
private theorem inRange_one (Aj : IVec S312500 32) (hAj : ∀ e, 0 ≤ (Aj e).toInt ∧ (Aj e).toInt < 50000)
    (e : Fin 312500) : inRange (nbrCol Aj) (ix1 e) = 1#1 := by
  unfold inRange
  refine Cert.LibReduceAnd.reduce_andi_of_all _ _ reducesTo_S312500x1_S312500_d1 h_S_ (ix1 e) (fun i => ?_) rfl
  obtain ⟨e', rfl⟩ := idx_col i
  have hlo : broadcastInDim S312500x1 ![] bcast_S_S312500x1 (constantI S_ 32 0#32) (ix2 e' (0 : Fin 1)) = 0#32 :=
    StableHlo.Predicate.bcast_scalar bcast_S_S312500x1 h_S_ _ _
  have hhi : broadcastInDim S312500x1 ![0, 1] bcast_S1x1_S312500x1_0_1
      (broadcastInDim S1x1 ![1] bcast_S1_S1x1_1 (constantI S1 32 49999#32)) (ix2 e' (0 : Fin 1)) = 49999#32 := rfl
  show IntOp.andi
      (IntOp.cmpi .sge (nbrCol Aj (ix2 e' (0 : Fin 1)))
        (broadcastInDim S312500x1 ![] bcast_S_S312500x1 (constantI S_ 32 0#32) (ix2 e' (0 : Fin 1))))
      (IntOp.cmpi .sle (nbrCol Aj (ix2 e' (0 : Fin 1)))
        (broadcastInDim S312500x1 ![0, 1] bcast_S1x1_S312500x1_0_1
          (broadcastInDim S1x1 ![1] bcast_S1_S1x1_1 (constantI S1 32 49999#32)) (ix2 e' (0 : Fin 1)))) = 1#1
  have hb := hAj (ix1 e')
  rw [hlo, hhi, nbrCol_apply, wrap_of_nonneg _ hb.1, IntOp.andi_eq_one, IntOp.cmpi_sge, IntOp.cmpi_sle,
    BitVec.toInt_zero]
  have h9 : (49999#32 : BitVec 32).toInt = 49999 := by decide
  rw [h9]
  exact ⟨hb.1, by omega⟩

/-- The range test laid along the rows of the updates is 1 at every entry. -/
private theorem mask_at (Aj : IVec S312500 32) (hAj : ∀ e, 0 ≤ (Aj e).toInt ∧ (Aj e).toInt < 50000)
    (e : Fin 312500) (o : Fin 256) :
    broadcastInDim S312500x256 ![0] bcast_S312500_S312500x256_0 (inRange (nbrCol Aj)) (ix2 e o) = 1#1 := by
  refine (broadcastInDim_apply _ bcast_S312500_S312500x256_0 (inRange (nbrCol Aj)) (ix2 e o) (ix1 e)
    (fun a => ?_)).trans (inRange_one Aj hAj e)
  match a with
  | ⟨0, _⟩ => show e.val = if (312500 : Nat) = 1 then 0 else e.val; rw [if_neg (by decide)]

/-! ## The gathered neighbour row -/

/-- The row gathered for edge `e`, at output `o`: the neighbour projection at the wrapped index's row. -/
private theorem gather_at (A6 : FVec Ideal S50000x256 .f32) (Aj : IVec S312500 32) (e : Fin 312500) (o : Fin 256) :
    Host.gather gather_S50000x256_S312500x1_S312500x256_1_0_n_n_0_1_1256 A6 (nbrCol Aj) (ix2 e o)
      = A6 (ix2 (rowOf (wrap (Aj (ix1 e)))) o) := by
  refine (gather_rows_apply (N := 50000) (E := 312500) (C := 256) (by decide)
    gather_S50000x256_S312500x1_S312500x256_1_0_n_n_0_1_1256_wf A6 (nbrCol Aj) e o).trans ?_
  refine congrArg (fun r : Fin 50000 => A6 (ix2 r o)) (Fin.ext ?_)
  show min (nbrCol Aj (ix2 e (0 : Fin 1))).toInt.toNat (50000 - 1) = min (wrap (Aj (ix1 e))).toInt.toNat 49999
  rw [nbrCol_apply]

/-- THE TAIL AT (n, o), when every neighbour index is a node. -/
theorem tail_apply (A5 A6 : FVec Ideal S50000x256 .f32) (Ai Aj : IVec S312500 32)
    (hAj : ∀ e, 0 ≤ (Aj e).toInt ∧ (Aj e).toInt < 50000) (n : Fin 50000) (o : Fin 256) :
    tailTerm A5 A6 Ai Aj (ix2 n o)
      = A5 (ix2 n o) + (0 + ∑ e ∈ edgesInto Ai n, A6 (ix2 (rowOf (wrap (Aj (ix1 e)))) o)) := by
  unfold tailTerm
  rw [addf_apply]
  refine congrArg (fun s : EReal => A5 (ix2 n o) + s) ?_
  refine (scatterAdd_rows_apply (N := 50000) (E := 312500) (C := 256)
    scatter_S50000x256_S312500x1_S312500x256_1_0_0_1_wf _ _ _ n o).trans ?_
  have hz : broadcastInDim S50000x256 ![] bcast_S_S50000x256 (constant (F := Ideal) S_ .f32 0x00000000#32) (ix2 n o)
      = (0 : EReal) := by
    rw [StableHlo.Predicate.bcast_scalar bcast_S_S50000x256 h_S_]
    exact Ideal.ofBits_zero_f32
  rw [hz]
  refine congrArg (fun s : EReal => 0 + s) ?_
  unfold edgesInto
  refine Finset.sum_congr (Finset.filter_congr fun e _ => by rw [HostTerms.col_apply]) fun e _ => ?_
  rw [select_apply, mask_at Aj hAj e o]
  unfold Scalar.select
  rw [if_pos (show (1#1 : BitVec 1) = 1 from rfl)]
  exact gather_at A6 Aj e o

end Cert.EdgeAgg.HostTail

end
-- ==== Proof.KernelValue.lean ====
/-
  The kernel program's result at an entry: the node-by-node form of its arguments.

  The host first cuts and transposes the weight, lays out the bias as a row, and counts each node's edges (the degree
  column); the node projection then leaves its two arrays (the degree-scaled source term and the neighbour projection);
  the host tail gathers the neighbours' rows, adds them into their source nodes' rows and adds the source term. Read at
  (n, o), with every neighbour index a node:
      degree n · ((∑ k, x (n, k) · W (o, k)) + b o)  +  ∑ over the edges e into n of  ∑ k, x (Aj e, k) · W (o, 256 + k).
-/
import proofs.«426169_j25907242729955_3_alg».proof.Proof.Gen.KernelIdeal.Frame
import proofs.«426169_j25907242729955_3_alg».proof.Proof.KernelArrays
import proofs.«426169_j25907242729955_3_alg».proof.Proof.HostTerms
import proofs.«426169_j25907242729955_3_alg».proof.Proof.HostTail
import proofs.«426169_j25907242729955_3_alg».proof.Proof.EdgeAgg
import Idealize.ShloMosaic.Lib.StableHlo.Run
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.StableHlo
open Idealize.ShloMosaic.Pipeline (Dat)

namespace Cert.EdgeAgg.KernelValue

open Cert.KernelIdeal Cert.KernelIdeal.Gen
open Cert.EdgeAgg Cert.EdgeAgg.Arrays Cert.EdgeAgg.HostTerms Cert.EdgeAgg.HostTail

variable (m : (ℓ : Loc nD τ sig) → Buf (Elt Ideal) ℓ) (ρ : Dev nD → PrngReg)

/-! ## The arguments, each at its literal type -/

abbrev argX (c : Dev nD) : FVec Ideal S50000x256 .f32 := m ((c : Thread nD τ).loc main_arg0)
abbrev argW (c : Dev nD) : FVec Ideal S256x512 .f32 := m ((c : Thread nD τ).loc main_arg1)
abbrev argB (c : Dev nD) : FVec Ideal S256 .f32 := m ((c : Thread nD τ).loc main_arg2)
abbrev argAi (c : Dev nD) : IVec S312500 32 := m ((c : Thread nD τ).loc main_arg3)
abbrev argAj (c : Dev nD) : IVec S312500 32 := m ((c : Thread nD τ).loc main_arg4)

/-! ## What the region finds: the host operations before it, applied to the arguments -/

theorem xArr_eq (c : Dev nD) : xArr m c = argX m c := V_main_arg0 m c

theorem wiArr_eq (c : Dev nD) :
    wiArr m c = truncf .bf16 (transpose S256x256 [1, 0]
      (extractStridedSlice S256x256 ![0, 0] (argW m c) slices_S256x512_S256x256_0_0)
      transposes_S256x256_S256x256_1_0) bitsLt_bf16_f32 := by
  show StableHlo.after hostOps0 (fun b => m (c, b)) (Proc.devRef .tc main_call0_v3) = _
  after_results
  rfl

theorem wjArr_eq (c : Dev nD) :
    wjArr m c = truncf .bf16 (transpose S256x256 [1, 0]
      (extractStridedSlice S256x256 ![0, 256] (argW m c) slices_S256x512_S256x256_0_256)
      transposes_S256x256_S256x256_1_0) bitsLt_bf16_f32 := by
  show StableHlo.after hostOps0 (fun b => m (c, b)) (Proc.devRef .tc main_call0_v5) = _
  after_results
  rfl

theorem dgArr_eq (c : Dev nD) :
    dgArr m c = shapeCast S50000x1
      (Host.scatterAdd (F := Ideal) scatter_S50000_S312500x1_S312500_n_0_0_1
        (broadcastInDim S50000 ![] bcast_S_S50000 (constant (F := Ideal) S_ .f32 0x00000000#32))
        (broadcastInDim S312500x1 ![0] bcast_S312500_S312500x1_0 (argAi m c))
        (broadcastInDim S312500 ![] bcast_S_S312500 (constant (F := Ideal) S_ .f32 0x3F800000#32)))
      shapeCasts_S50000_S50000x1 := by
  show StableHlo.after hostOps0 (fun b => m (c, b)) (Proc.devRef .tc main_call0_v10) = _
  after_results
  rfl

theorem brArr_eq (c : Dev nD) : brArr m c = shapeCast S1x256 (argB m c) shapeCasts_S256_S1x256 := by
  show StableHlo.after hostOps0 (fun b => m (c, b)) (Proc.devRef .tc main_call0_v11) = _
  after_results
  rfl

/-- The neighbour projection's array at (r, o), in the arguments. -/
theorem nbr_entry (c : Dev nD) (r : Fin 50000) (o : Fin 256) :
    nbrArr (xArr m c) (wjArr m c) (ix2 r o) = projJ (argX m c) (argW m c) r o := by
  show rowProj (xArr m c) (wjArr m c) r o = _
  unfold rowProj projJ
  refine Finset.sum_congr rfl fun k _ => ?_
  rw [xArr_eq, wjArr_eq, wj_apply]

/-- The degree-scaled source term's array at (n, o), in the arguments. -/
theorem src_entry (c : Dev nD) (n : Fin 50000) (o : Fin 256) :
    srcArr (xArr m c) (wiArr m c) (dgArr m c) (brArr m c) (ix2 n o)
      = (0 + ∑ _e ∈ edgesInto (argAi m c) n, (1 : EReal)) * (projI (argX m c) (argW m c) n o + argB m c (ix1 o)) := by
  show dgArr m c (ix2 n (0 : Fin 1)) * (rowProj (xArr m c) (wiArr m c) n o + brArr m c (ix2 (0 : Fin 1) o)) = _
  have hs : rowProj (xArr m c) (wiArr m c) n o = projI (argX m c) (argW m c) n o := by
    unfold rowProj projI
    refine Finset.sum_congr rfl fun k _ => ?_
    rw [xArr_eq, wiArr_eq, wi_apply]
  rw [hs, dgArr_eq, dg_apply, brArr_eq, br_apply]

/-! ## What the region leaves, and the host tail over it -/

/-- The buffer contents when the region is left: its arrays at what the grid wrote, everything else as it found it. -/
abbrev exitVal (c : Dev nD) : Valuation τ sig (Elt Ideal) :=
  Pipeline.withArrays (cfgs 0).spec c (V0 m c) (fun w => (dats m 0 c).arrAt w (cfgs 0).N)

theorem exit_src (c : Dev nD) :
    (exitVal m c (Proc.devRef .tc main_call0_v12_0) : FVec Ideal S50000x256 .f32)
      = srcArr (xArr m c) (wiArr m c) (dgArr m c) (brArr m c) :=
  (Pipeline.withArrays_arr spec0 launch0.win.arr_inj c _ _ 5).trans (final5 m c)

theorem exit_nbr (c : Dev nD) :
    (exitVal m c (Proc.devRef .tc main_call0_v12_1) : FVec Ideal S50000x256 .f32) = nbrArr (xArr m c) (wjArr m c) :=
  (Pipeline.withArrays_arr spec0 launch0.win.arr_inj c _ _ 6).trans (final6 m c)

theorem exit_Ai (c : Dev nD) : (exitVal m c (Proc.devRef .tc main_arg3) : IVec S312500 32) = argAi m c :=
  (Pipeline.withArrays_of_ne _ c (V0 m c) _ main_arg3
    (by exact (by decide : ∀ w, Pipeline.arrRef spec0 w ≠ main_arg3))).trans (V_main_arg3 m c)

theorem exit_Aj (c : Dev nD) : (exitVal m c (Proc.devRef .tc main_arg4) : IVec S312500 32) = argAj m c :=
  (Pipeline.withArrays_of_ne _ c (V0 m c) _ main_arg4
    (by exact (by decide : ∀ w, Pipeline.arrRef spec0 w ≠ main_arg4))).trans (V_main_arg4 m c)

set_option maxHeartbeats 4000000 in
set_option maxRecDepth 65536 in
/-- The program's result is the tail's term of what the region leaves. -/
theorem tail_eq (c : Dev nD) :
    Pipeline.afterTail₀ cfgs (dats m) 0 (V0 m) [hostOps1] c main_v0
      = tailTerm (exitVal m c (Proc.devRef .tc main_call0_v12_0)) (exitVal m c (Proc.devRef .tc main_call0_v12_1))
          (exitVal m c (Proc.devRef .tc main_arg3)) (exitVal m c (Proc.devRef .tc main_arg4)) := by
  unfold Pipeline.afterTail₀
  simp only [List.flatten_cons, List.flatten_nil, List.append_nil]
  after_results
  simp only [TRef.ofBuf, TRef.toBuf, cast_eq]
  rfl

/-- THE KERNEL PROGRAM'S RESULT AT (n, o), when every neighbour index is a node: the node-by-node form. -/
theorem kernel_apply (c : Dev nD) (hAj : ∀ e, 0 ≤ (argAj m c e).toInt ∧ (argAj m c e).toInt < 50000)
    (n : Fin 50000) (o : Fin 256) :
    (Pipeline.afterTail₀ cfgs (dats m) 0 (V0 m) [hostOps1] c main_v0 : FVec Ideal S50000x256 .f32) (ix2 n o)
      = nodeForm (argX m c) (argW m c) (argB m c) (argAi m c) (argAj m c) n o := by
  rw [tail_eq, exit_src, exit_nbr, exit_Ai, exit_Aj, tail_apply _ _ _ _ hAj n o, src_entry]
  unfold nodeForm
  have hs : (∑ e ∈ edgesInto (argAi m c) n, nbrArr (xArr m c) (wjArr m c) (ix2 (rowOf (wrap (argAj m c (ix1 e)))) o))
      = ∑ e ∈ edgesInto (argAi m c) n, projJ (argX m c) (argW m c) (rowOf (wrap (argAj m c (ix1 e)))) o :=
    Finset.sum_congr rfl fun e _ => nbr_entry m c _ o
  rw [hs]

/-! ## The run -/

/-- Every weakly fair execution of the program terminates with the result at the tail's term and the arguments
    unchanged: the frame run, read at the result and at the arguments. -/
theorem run : θ_run defs (onTc (τ := τ) (main (F := Ideal))) ⟨m, fun _ => 0, ρ⟩ fun r => ∀ c : Dev nD,
      r.2.mem ((c.tc : Thread nD τ).loc main_v0) = Pipeline.afterTail₀ cfgs (dats m) 0 (V0 m) [hostOps1] c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c).2 main_v0 (Pipeline.mem_restRefs_of main_v0 (by decide) (by decide)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.EdgeAgg.KernelValue

end
-- ==== Proof.lean ====
/-
  A graph layer's message passing: for every edge e, the message W · [x (Ai e) ; x (Aj e)] + b, summed into the row of
  its source node Ai e. The reference does exactly that, edge by edge (312500 edges, a 512-wide contraction each). The
  kernel program uses that the source's share of a message is the same for every edge of a node: it projects every NODE
  once with each half of the weight (a Pallas call over 25 blocks of 2000 nodes, which also scales the source share by
  the node's degree, counted on the host beforehand), then gathers the neighbours' projected rows and adds them into
  their source nodes' rows on the host, and adds the two.

  Over the extended reals, at finite arguments, the two are one function:
      ∑ over e with Ai e = n of ((P_i n + P_j (Aj e)) + b)  =  deg n · (P_i n + b) + ∑ over e with Ai e = n of P_j (Aj e),
  distributivity over |{e : Ai e = n}| equal real terms (EdgeNode). A source index that is no node reaches no row on
  either side; a NEIGHBOUR index that is no node is where the two programs part (the reference's gather clamps it into
  range, the kernel program's take marks the row invalid), so the precondition asks of the neighbour indices what the
  reference's own indexing asks: 0 ≤ Aj e < 50000 (PreFacts reads it, and the finiteness, off the printed predicate).

  The modules: EdgeAgg names the two closed forms; RefRead reads the reference's result at an entry as the edge-by-edge
  form; KernelBody, KernelArrays read the Pallas call's two output arrays as whole-array functions of what it finds;
  HostTerms, HostTail read the host operations before and after it; KernelValue puts the kernel side together as the
  node-by-node form. The three frames are the generated ones (the reference's its generated run with the result
  dropped); nothing was rewritten by the ideal pass, so there is nothing to preserve.
-/
import proofs.«426169_j25907242729955_3_alg».proof.Defs
import proofs.«426169_j25907242729955_3_alg».proof.Proof.Gen.Kernel
import proofs.«426169_j25907242729955_3_alg».proof.Proof.Gen.Kernel.Skeleton
import proofs.«426169_j25907242729955_3_alg».proof.Proof.Gen.Kernel.Launch
import proofs.«426169_j25907242729955_3_alg».proof.Proof.Gen.Kernel.Points
import proofs.«426169_j25907242729955_3_alg».proof.Proof.Gen.Kernel.Frame
import proofs.«426169_j25907242729955_3_alg».proof.Proof.Gen.KernelIdeal
import proofs.«426169_j25907242729955_3_alg».proof.Proof.Gen.KernelIdeal.Skeleton
import proofs.«426169_j25907242729955_3_alg».proof.Proof.Gen.KernelIdeal.Launch
import proofs.«426169_j25907242729955_3_alg».proof.Proof.Gen.KernelIdeal.Points
import proofs.«426169_j25907242729955_3_alg».proof.Proof.Gen.KernelIdeal.Frame
import proofs.«426169_j25907242729955_3_alg».proof.Proof.Gen.ReferenceIdeal
import proofs.«426169_j25907242729955_3_alg».proof.Proof.Gen.Pre_finite_inputs
import proofs.«426169_j25907242729955_3_alg».proof.Proof.Gen.ReferenceIdeal.Run
import proofs.«426169_j25907242729955_3_alg».proof.Proof.Gen.ReferenceIdeal.Read
import proofs.«426169_j25907242729955_3_alg».proof.Proof.PreFacts
import proofs.«426169_j25907242729955_3_alg».proof.Proof.EdgeNode
import proofs.«426169_j25907242729955_3_alg».proof.Proof.RefRead
import proofs.«426169_j25907242729955_3_alg».proof.Proof.KernelValue
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel program ends at its host tail's term (KernelValue.run), the reference at its composed term (its
    generated run); from arguments that agree, finite and with every neighbour index a node, the two terms are equal
    entry by entry: the reference's is the edge-by-edge form, which is the node-by-node form, which is the kernel's. -/
theorem algebraic : Cert.algebraic_KernelIdeal_ReferenceIdeal := by
  intro m ρ m' ρ' hpre hagree
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v0, Cert.EdgeAgg.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hW, hb, hAj⟩ := Cert.PreFacts.of_pre _ _ _ _ _ (hpre c)
  rw [(hagree c).1, (hagree c).2.1, (hagree c).2.2.1, (hagree c).2.2.2.1, (hagree c).2.2.2.2,
    Cert.ReferenceIdeal.Read.val_main_v21_eq]
  funext i
  obtain ⟨n, o, rfl⟩ : ∃ (n : Fin 50000) (o : Fin 256), i = ix2 n o := ⟨i 0, i 1, eq_ix2 i⟩
  rw [Cert.EdgeAgg.Ref.ref_apply, Cert.EdgeAgg.edgeForm_eq_nodeForm _ _ _ _ _ hx hW hb]
  exact (Cert.EdgeAgg.KernelValue.kernel_apply m c hAj n o).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
